-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S512x11008 : Shape := ⟨2, ![512, 11008]⟩
abbrev S32x1376 : Shape := ⟨2, ![32, 1376]⟩
abbrev S32x11008 : Shape := ⟨2, ![32, 11008]⟩
abbrev S11008 : Shape := ⟨1, ![11008]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S256x4096 .f32) (main_arg1 : IVec S512x11008 32) (main_arg2 : IVec S32x1376 32) (main_arg3 : FVec F S32x11008 .f32) (main_arg4 : FVec F S11008 .f32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  let main_v4 : FVec F S32x11008 .f32 := Host.absf main_arg3
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S11008 .f32 := Host.absf main_arg4
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S256x4096 : Shape := ⟨2, ![256, 4096]⟩
abbrev S512x11008 : Shape := ⟨2, ![512, 11008]⟩
abbrev S32x1376 : Shape := ⟨2, ![32, 1376]⟩
abbrev S32x11008 : Shape := ⟨2, ![32, 11008]⟩
abbrev S11008 : Shape := ⟨1, ![11008]⟩
abbrev S8 : Shape := ⟨1, ![8]⟩
abbrev S_ : Shape := ⟨0, ![]⟩
abbrev S32x1376x1 : Shape := ⟨3, ![32, 1376, 1]⟩
abbrev S1x1x8 : Shape := ⟨3, ![1, 1, 8]⟩
abbrev S32x1376x8 : Shape := ⟨3, ![32, 1376, 8]⟩
abbrev S1x11008 : Shape := ⟨2, ![1, 11008]⟩
abbrev S256x11008 : Shape := ⟨2, ![256, 11008]⟩
abbrev S128x5504 : Shape := ⟨2, ![128, 5504]⟩
abbrev S8x5504 : Shape := ⟨2, ![8, 5504]⟩
abbrev S1x5504 : Shape := ⟨2, ![1, 5504]⟩
abbrev S256x5504 : Shape := ⟨2, ![256, 5504]⟩
abbrev S1x8x1 : Shape := ⟨3, ![1, 8, 1]⟩
abbrev S16x5504 : Shape := ⟨2, ![16, 5504]⟩
abbrev S16x1x5504 : Shape := ⟨3, ![16, 1, 5504]⟩
abbrev S16x8x5504 : Shape := ⟨3, ![16, 8, 5504]⟩
abbrev S5504 : Shape := ⟨1, ![5504]⟩
abbrev S256x128 : Shape := ⟨2, ![256, 128]⟩

abbrev nBuf : Space → Nat
  | .hbm => 28
  | .vmem => 11
  | .smem => 0
  | _ => 0

abbrev bufTy : (tb : Table) → Fin (tcTables nBuf tb) → BufTy
  | .hbm, ⟨0, _⟩ => ⟨S256x4096, .f32⟩
  | .hbm, ⟨1, _⟩ => ⟨S512x11008, .i32⟩
  | .hbm, ⟨2, _⟩ => ⟨S32x1376, .i32⟩
  | .hbm, ⟨3, _⟩ => ⟨S32x11008, .f32⟩
  | .hbm, ⟨4, _⟩ => ⟨S11008, .f32⟩
  | .hbm, ⟨5, _⟩ => ⟨S256x4096, .bf16⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S_, .i32⟩
  | .hbm, ⟨11, _⟩ => ⟨S8, .i32⟩
  | .hbm, ⟨12, _⟩ => ⟨S8, .i32⟩
  | .hbm, ⟨13, _⟩ => ⟨S32x1376x1, .i32⟩
  | .hbm, ⟨14, _⟩ => ⟨S1x1x8, .i32⟩
  | .hbm, ⟨15, _⟩ => ⟨S32x1376x8, .i32⟩
  | .hbm, ⟨16, _⟩ => ⟨S32x1376x8, .i32⟩
  | .hbm, ⟨17, _⟩ => ⟨S32x1376x8, .i32⟩
  | .hbm, ⟨18, _⟩ => ⟨S_, .i32⟩
  | .hbm, ⟨19, _⟩ => ⟨S32x1376x8, .i32⟩
  | .hbm, ⟨20, _⟩ => ⟨S32x1376x8, .i32⟩
  | .hbm, ⟨21, _⟩ => ⟨S_, .i32⟩
  | .hbm, ⟨22, _⟩ => ⟨S32x1376x8, .i32⟩
  | .hbm, ⟨23, _⟩ => ⟨S32x1376x8, .i32⟩
  | .hbm, ⟨24, _⟩ => ⟨S32x11008, .i32⟩
  | .hbm, ⟨25, _⟩ => ⟨S32x11008, .f32⟩
  | .hbm, ⟨26, _⟩ => ⟨S1x11008, .f32⟩
  | .hbm, ⟨27, _⟩ => ⟨S256x11008, .f32⟩
  | .local _ .vmem, ⟨0, _⟩ => ⟨S256x4096, .bf16⟩
  | .local _ .vmem, ⟨1, _⟩ => ⟨S128x5504, .i32⟩
  | .local _ .vmem, ⟨2, _⟩ => ⟨S128x5504, .i32⟩
  | .local _ .vmem, ⟨3, _⟩ => ⟨S8x5504, .f32⟩
  | .local _ .vmem, ⟨4, _⟩ => ⟨S8x5504, .f32⟩
  | .local _ .vmem, ⟨5, _⟩ => ⟨S8x5504, .f32⟩
  | .local _ .vmem, ⟨6, _⟩ => ⟨S8x5504, .f32⟩
  | .local _ .vmem, ⟨7, _⟩ => ⟨S1x5504, .f32⟩
  | .local _ .vmem, ⟨8, _⟩ => ⟨S1x5504, .f32⟩
  | .local _ .vmem, ⟨9, _⟩ => ⟨S256x5504, .f32⟩
  | .local _ .vmem, ⟨10, _⟩ => ⟨S256x5504, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32_1 : BitVec 32 := 0#32
  let c8_i32 : BitVec 32 := 8#32
  let v7 : BitVec 32 := Scalar.addi c0_i32_1 c8_i32
  let c1_i32 : BitVec 32 := 1#32
  ⟨c0_i32_1, v7, c1_i32⟩
def k0_mult1 (k0_t1 : Fin k0_t1_loop.trips) : BitVec 32 :=
  let c0_i32_1 : BitVec 32 := 0#32
  let c1_i32 : BitVec 32 := 1#32
  let arg8 : BitVec 32 := Scf.iv c0_i32_1 c1_i32 k0_t1
  let c16_i32 : BitVec 32 := 16#32
  let v16 : BitVec 32 := Scalar.muli arg8 c16_i32
  v16
def k0_off1 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let c16_i32 : BitVec 32 := 16#32
  let v16 : BitVec 32 := Scalar.muli arg8 c16_i32
  let v17 : BitVec 32 := v16
  let v18 : Index := Scalar.indexCast v17
  let c0_7 : Index := 0#32
  ![v18.toNat, 0]
def k0_off2 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v28 : Index := Scalar.indexCast arg8
  let c0_8 : Index := 0#32
  ![v28.toNat, 0]
def k0_mult2 (i : grid0.Coords) (k0_t1 : Fin k0_t1_loop.trips) : BitVec 32 :=
  let arg1 : BitVec 32 := BitVec.ofNat 32 (i 1).val
  let c1024_i32 : BitVec 32 := 1024#32
  let v42 : BitVec 32 := Scalar.muli arg1 c1024_i32
  let c0_i32_1 : BitVec 32 := 0#32
  let c1_i32 : BitVec 32 := 1#32
  let arg8 : BitVec 32 := Scf.iv c0_i32_1 c1_i32 k0_t1
  let c128_i32 : BitVec 32 := 128#32
  let v43 : BitVec 32 := Scalar.muli arg8 c128_i32
  let v44 : BitVec 32 := Scalar.addi v42 v43
  v44
def k0_off3 (i : grid0.Coords) (k0_t1 : Fin k0_t1_loop.trips) : Fin 2 → Nat :=
  let c0_10 : Index := 0#32
  let arg1 : BitVec 32 := BitVec.ofNat 32 (i 1).val
  let c1024_i32 : BitVec 32 := 1024#32
  let v42 : BitVec 32 := Scalar.muli arg1 c1024_i32
  let c0_i32_1 : BitVec 32 := 0#32
  let c1_i32 : BitVec 32 := 1#32
  let arg8 : BitVec 32 := Scf.iv c0_i32_1 c1_i32 k0_t1
  let c128_i32 : BitVec 32 := 128#32
  let v43 : BitVec 32 := Scalar.muli arg8 c128_i32
  let v44 : BitVec 32 := Scalar.addi v42 v43
  let v45 : BitVec 32 := v44
  let v46 : Index := Scalar.indexCast v45
  ![0, v46.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x5504 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x5504 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x5504 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x5504 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x5504 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  bcast_S_S8 : S_.BroadcastsInDim S8 (![] : Fin 0 → Fin S8.rank)
  bcast_S32x1376_S32x1376x1_0_1 : S32x1376.BroadcastsInDim S32x1376x1 (![0, 1] : Fin 2 → Fin S32x1376x1.rank)
  bcast_S8_S1x1x8_2 : S8.BroadcastsInDim S1x1x8 (![2] : Fin 1 → Fin S1x1x8.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  shapeCasts_S11008_S1x11008 : S11008.ShapeCasts S1x11008
  inb_S256x5504_S256x5504_0_0 : ∀ a, (![0, 0] : Fin 2 → Nat) a + S256x5504.size a ≤ S256x5504.size a
  h_S256x5504 : 0 < S256x5504.numel
  iota_S1x8x1_d1_w32 : S1x8x1.Iotas .tc 32 [1]
  h_S16x5504 : 0 < S16x5504.numel
  shapeCasts_S16x5504_S16x1x5504 : S16x5504.ShapeCasts S16x1x5504
  broadcasts_S16x1x5504_S16x8x5504 : S16x1x5504.Broadcasts S16x8x5504
  broadcasts_S1x8x1_S16x8x5504 : S1x8x1.Broadcasts S16x8x5504
  shapeCasts_S16x8x5504_S128x5504 : S16x8x5504.ShapeCasts S128x5504
  h_S1x5504 : 0 < S1x5504.numel
  shapeCasts_S1x5504_S5504 : S1x5504.ShapeCasts S5504
  shapeCasts_S5504_S1x5504 : S5504.ShapeCasts S1x5504
  broadcasts_S1x5504_S128x5504 : S1x5504.Broadcasts S128x5504
  h_S256x128 : 0 < S256x128.numel
  shapeCasts_S256x128_S256x128 : S256x128.ShapeCasts S256x128
  shapeCasts_S256x5504_S256x5504 : S256x5504.ShapeCasts S256x5504
  inb_S1x5504_S1x5504_0_0 : ∀ a, (![0, 0] : Fin 2 → Nat) a + S1x5504.size a ≤ S1x5504.size a
  shapeCasts_S1x5504_S1x5504 : S1x5504.ShapeCasts S1x5504
  broadcasts_S1x5504_S256x5504 : S1x5504.Broadcasts S256x5504
  dot_S256x128_S128x5504_S256x5504_1_0_0_1_n_n_wf : DotDims.WF S256x128 S128x5504 S256x5504 [1] [0] [0] [1] [] []
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S16x5504.size a ≤ S128x5504.size a
  k0_off2_inb : ∀ k0_t1 : Fin k0_t1_loop.trips, ∀ a, (k0_off2 k0_t1) a + S1x5504.size a ≤ S8x5504.size a
  k0_mult2_dvd : ∀ (i : grid0.Coords) (k0_t1 : Fin k0_t1_loop.trips), 128 ∣ (k0_mult2 i k0_t1).toNat
  k0_off3_inb : ∀ (i : grid0.Coords) (k0_t1 : Fin k0_t1_loop.trips), ∀ a, (k0_off3 i k0_t1) a + S256x128.size a ≤ S256x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x4096.size a
  hwx0_0 : ∀ i : grid0.Coords, EltTy.bits .bf16 = 32 ∨ (Rect.block (s := S256x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x5504.size a ≤ S512x11008.size a
  hwx0_1 : ∀ i : grid0.Coords, EltTy.bits .i32 = 32 ∨ (Rect.block (s := S512x11008) S128x5504.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x5504.size a ≤ S32x11008.size a
  hwx0_2 : ∀ i : grid0.Coords, EltTy.bits .f32 = 32 ∨ (Rect.block (s := S32x11008) S8x5504.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x5504.size a ≤ S32x11008.size a
  hwx0_3 : ∀ i : grid0.Coords, EltTy.bits .f32 = 32 ∨ (Rect.block (s := S32x11008) S8x5504.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x5504.size a ≤ S1x11008.size a
  hwx0_4 : ∀ i : grid0.Coords, EltTy.bits .f32 = 32 ∨ (Rect.block (s := S1x11008) S1x5504.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x5504.size a ≤ S256x11008.size a
  hwx0_5 : ∀ i : grid0.Coords, EltTy.bits .f32 = 32 ∨ (Rect.block (s := S256x11008) S256x5504.size (cc0_transform_5 i) (hinb0_5 i)).WholeWords (EltTy.packing .f32)

variable [Facts₀]

def dot_S256x128_S128x5504_S256x5504_1_0_0_1_n_n : DotDims S256x128 S128x5504 S256x5504 where
  lhsContracting := [1]
  rhsContracting := [0]
  lhsNonContracting := [0]
  rhsNonContracting := [1]
  lhsBatch := []
  rhsBatch := []
  wf := dot_S256x128_S128x5504_S256x5504_1_0_0_1_n_n_wf

abbrev win0_0 : Pipeline.Window sig grid0 :=
  Pipeline.Window.ofSpec (Memref.whole main_v0) S256x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x5504.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S8x5504.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x5504.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x5504.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18) S256x5504.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S256x4096 : Shape := ⟨2, ![256, 4096]⟩
abbrev S512x11008 : Shape := ⟨2, ![512, 11008]⟩
abbrev S32x1376 : Shape := ⟨2, ![32, 1376]⟩
abbrev S32x11008 : Shape := ⟨2, ![32, 11008]⟩
abbrev S11008 : Shape := ⟨1, ![11008]⟩
abbrev S8 : Shape := ⟨1, ![8]⟩
abbrev S_ : Shape := ⟨0, ![]⟩
abbrev S512x1x11008 : Shape := ⟨3, ![512, 1, 11008]⟩
abbrev S1x8x1 : Shape := ⟨3, ![1, 8, 1]⟩
abbrev S512x8x11008 : Shape := ⟨3, ![512, 8, 11008]⟩
abbrev S4096x11008 : Shape := ⟨2, ![4096, 11008]⟩
abbrev S32x1376x1 : Shape := ⟨3, ![32, 1376, 1]⟩
abbrev S1x1x8 : Shape := ⟨3, ![1, 1, 8]⟩
abbrev S32x1376x8 : Shape := ⟨3, ![32, 1376, 8]⟩
abbrev S4096 : Shape := ⟨1, ![4096]⟩
abbrev S4096x1 : Shape := ⟨2, ![4096, 1]⟩
abbrev S256x11008 : Shape := ⟨2, ![256, 11008]⟩
abbrev S1x11008 : Shape := ⟨2, ![1, 11008]⟩

abbrev nBuf : Space → Nat
  | .hbm => 77
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S512x11008, .i32⟩
  | .hbm, ⟨2, _⟩ => ⟨S32x1376, .i32⟩
  | .hbm, ⟨3, _⟩ => ⟨S32x11008, .f32⟩
  | .hbm, ⟨4, _⟩ => ⟨S11008, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S512x1x11008, .i32⟩
  | .hbm, ⟨13, _⟩ => ⟨S1x8x1, .i32⟩
  | .hbm, ⟨14, _⟩ => ⟨S512x8x11008, .i32⟩
  | .hbm, ⟨15, _⟩ => ⟨S512x8x11008, .i32⟩
  | .hbm, ⟨16, _⟩ => ⟨S512x8x11008, .i32⟩
  | .hbm, ⟨17, _⟩ => ⟨S_, .i32⟩
  | .hbm, ⟨18, _⟩ => ⟨S512x8x11008, .i32⟩
  | .hbm, ⟨19, _⟩ => ⟨S512x8x11008, .i32⟩
  | .hbm, ⟨20, _⟩ => ⟨S4096x11008, .i32⟩
  | .hbm, ⟨21, _⟩ => ⟨S32x1376x1, .i32⟩
  | .hbm, ⟨22, _⟩ => ⟨S1x1x8, .i32⟩
  | .hbm, ⟨23, _⟩ => ⟨S32x1376x8, .i32⟩
  | .hbm, ⟨24, _⟩ => ⟨S32x1376x8, .i32⟩
  | .hbm, ⟨25, _⟩ => ⟨S32x1376x8, .i32⟩
  | .hbm, ⟨26, _⟩ => ⟨S_, .i32⟩
  | .hbm, ⟨27, _⟩ => ⟨S32x1376x8, .i32⟩
  | .hbm, ⟨28, _⟩ => ⟨S32x1376x8, .i32⟩
  | .hbm, ⟨29, _⟩ => ⟨S_, .i32⟩
  | .hbm, ⟨30, _⟩ => ⟨S32x1376x8, .i32⟩
  | .hbm, ⟨31, _⟩ => ⟨S32x1376x8, .i32⟩
  | .hbm, ⟨32, _⟩ => ⟨S32x11008, .i32⟩
  | .hbm, ⟨33, _⟩ => ⟨S4096, .i32⟩
  | .hbm, ⟨34, _⟩ => ⟨S_, .i32⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i1⟩
  | .hbm, ⟨42, _⟩ => ⟨S4096, .i32⟩
  | .hbm, ⟨43, _⟩ => ⟨S4096, .i32⟩
  | .hbm, ⟨44, _⟩ => ⟨S_, .i32⟩
  | .hbm, ⟨45, _⟩ => ⟨S4096, .i32⟩
  | .hbm, ⟨46, _⟩ => ⟨S4096, .i1⟩
  | .hbm, ⟨47, _⟩ => ⟨S4096, .i1⟩
  | .hbm, ⟨48, _⟩ => ⟨S_, .i32⟩
  | .hbm, ⟨49, _⟩ => ⟨S4096, .i32⟩
  | .hbm, ⟨50, _⟩ => ⟨S4096, .i32⟩
  | .hbm, ⟨51, _⟩ => ⟨S4096, .i32⟩
  | .hbm, ⟨52, _⟩ => ⟨S_, .i32⟩
  | .hbm, ⟨53, _⟩ => ⟨S4096, .i32⟩
  | .hbm, ⟨54, _⟩ => ⟨S4096, .i1⟩
  | .hbm, ⟨55, _⟩ => ⟨S_, .i32⟩
  | .hbm, ⟨56, _⟩ => ⟨S4096, .i32⟩
  | .hbm, ⟨57, _⟩ => ⟨S4096, .i32⟩
  | .hbm, ⟨58, _⟩ => ⟨S4096, .i32⟩
  | .hbm, ⟨59, _⟩ => ⟨S4096x1, .i32⟩
  | .hbm, ⟨60, _⟩ => ⟨S4096x11008, .i32⟩
  | .hbm, ⟨61, _⟩ => ⟨S4096x11008, .i32⟩
  | .hbm, ⟨62, _⟩ => ⟨S4096x11008, .f32⟩
  | .hbm, ⟨63, _⟩ => ⟨S_, .i32⟩
  | .hbm, ⟨64, _⟩ => ⟨S4096, .i32⟩
  | .hbm, ⟨65, _⟩ => ⟨S4096, .i1⟩
  | .hbm, ⟨66, _⟩ => ⟨S_, .i32⟩
  | .hbm, ⟨67, _⟩ => ⟨S4096, .i32⟩
  | .hbm, ⟨68, _⟩ => ⟨S4096, .i32⟩
  | .hbm, ⟨69, _⟩ => ⟨S4096, .i32⟩
  | .hbm, ⟨70, _⟩ => ⟨S4096x1, .i32⟩
  | .hbm, ⟨71, _⟩ => ⟨S4096x11008, .f32⟩
  | .hbm, ⟨72, _⟩ => ⟨S4096x11008, .f32⟩
  | .hbm, ⟨73, _⟩ => ⟨S256x11008, .f32⟩
  | .hbm, ⟨74, _⟩ => ⟨S1x11008, .f32⟩
  | .hbm, ⟨75, _⟩ => ⟨S256x11008, .f32⟩
  | .hbm, ⟨76, _⟩ => ⟨S256x11008, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_c : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_0 : Ref sig .tc := ⟨.hbm, 48, rfl⟩
abbrev main_call0_v12 : Ref sig .tc := ⟨.hbm, 49, rfl⟩
abbrev main_call0_v13 : Ref sig .tc := ⟨.hbm, 50, rfl⟩
abbrev main_v24 : Ref sig .tc := ⟨.hbm, 51, rfl⟩
abbrev main_c_5 : Ref sig .tc := ⟨.hbm, 52, rfl⟩
abbrev main_v25 : Ref sig .tc := ⟨.hbm, 53, rfl⟩
abbrev main_v26 : Ref sig .tc := ⟨.hbm, 54, rfl⟩
abbrev main_c_6 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_7 : Ref sig .tc := ⟨.hbm, 63, rfl⟩
abbrev main_v34 : Ref sig .tc := ⟨.hbm, 64, rfl⟩
abbrev main_v35 : Ref sig .tc := ⟨.hbm, 65, rfl⟩
abbrev main_c_8 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S512x11008_S512x1x11008_0_2 : S512x11008.BroadcastsInDim S512x1x11008 (![0, 2] : Fin 2 → Fin S512x1x11008.rank)
  bcast_S8_S1x8x1_1 : S8.BroadcastsInDim S1x8x1 (![1] : Fin 1 → Fin S1x8x1.rank)
  bcast_S512x1x11008_S512x8x11008_0_1_2 : S512x1x11008.BroadcastsInDim S512x8x11008 (![0, 1, 2] : Fin 3 → Fin S512x8x11008.rank)
  bcast_S1x8x1_S512x8x11008_0_1_2 : S1x8x1.BroadcastsInDim S512x8x11008 (![0, 1, 2] : Fin 3 → Fin S512x8x11008.rank)
  bcast_S_S512x8x11008 : S_.BroadcastsInDim S512x8x11008 (![] : Fin 0 → Fin S512x8x11008.rank)
  shapeCasts_S512x8x11008_S4096x11008 : S512x8x11008.ShapeCasts S4096x11008
  bcast_S32x1376_S32x1376x1_0_1 : S32x1376.BroadcastsInDim S32x1376x1 (![0, 1] : Fin 2 → Fin S32x1376x1.rank)
  bcast_S8_S1x1x8_2 : S8.BroadcastsInDim S1x1x8 (![2] : Fin 1 → Fin S1x1x8.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  bcast_S_S4096 : S_.BroadcastsInDim S4096 (![] : Fin 0 → Fin S4096.rank)
  bcast_S4096_S4096x1_0 : S4096.BroadcastsInDim S4096x1 (![0] : Fin 1 → Fin S4096x1.rank)
  bcast_S11008_S1x11008_1 : S11008.BroadcastsInDim S1x11008 (![1] : Fin 1 → Fin S1x11008.rank)
  bcast_S1x11008_S256x11008_0_1 : S1x11008.BroadcastsInDim S256x11008 (![0, 1] : Fin 2 → Fin S256x11008.rank)
  gather_S32x11008_S4096x1_S4096x11008_1_0_n_n_0_1_111008_wf : GatherDims.WF S32x11008 S4096x1 S4096x11008 [1] [0] [] [0] [] 1 ![1, 11008]
  dot_S256x4096_S4096x11008_S256x11008_1_0_0_1_n_n_wf : DotDims.WF S256x4096 S4096x11008 S256x11008 [1] [0] [0] [1] [] []

variable [Facts₀]

def gather_S32x11008_S4096x1_S4096x11008_1_0_n_n_0_1_111008 : GatherDims S32x11008 S4096x1 S4096x11008 where
  offsetDims := [1]
  collapsedSliceDims := [0]
  operandBatchingDims := []
  startIndicesBatchingDims := []
  startIndexMap := [0]
  indexVectorDim := 1
  sliceSizes := ![1, 11008]
  wf := gather_S32x11008_S4096x1_S4096x11008_1_0_n_n_0_1_111008_wf
def dot_S256x4096_S4096x11008_S256x11008_1_0_0_1_n_n : DotDims S256x4096 S4096x11008 S256x11008 where
  lhsContracting := [1]
  rhsContracting := [0]
  lhsNonContracting := [0]
  rhsNonContracting := [1]
  lhsBatch := []
  rhsBatch := []
  wf := dot_S256x4096_S4096x11008_S256x11008_1_0_0_1_n_n_wf

class Facts : Prop extends Facts₀ where

variable [Facts]
-- ==== Proof.LibIdxSums.lean ====
/-
  General lemmas on finite sums over index types, generic in the sizes and in the additive commutative monoid summed in.

  `sum_fin_mul`: a sum over `Fin (m * n)` is the double sum over quotient `a : Fin m` and remainder `b : Fin n` of the
  entry `a * n + b`. `sum_idx1`, `sum_idx3u`: a sum over the indices of a rank-1 array, or of an [n, 1, 1] array, is
  the sum over `Fin n` of the entries `ix1 k`, `ix3 q 0 0`. `sum_concat3`: the sum of a rank-1 concatenation of three
  pieces (StableHLO's concatenate along axis 0) is the sum of the three pieces' sums — the entry at position c comes
  from the first piece when c < n₁, from the second at c - n₁ when n₁ ≤ c < n₁ + n₂, from the third at
  c - (n₁ + n₂) otherwise.
-/
import Idealize.ShloMosaic.Lib.ValueIdx
import Idealize.ShloMosaic.Lib.Pipeline.Value
import Mathlib.Algebra.BigOperators.Fin
import Mathlib.Logic.Equiv.Fin.Basic

noncomputable section

namespace Cert.IdxSums

open Idealize.ShloMosaic Idealize.ShloMosaic.ValueIdx

/-- A sum over `Fin (m * n)` taken quotient by quotient: the entry `a * n + b` is met once, at quotient `a` and
    remainder `b`. -/
theorem sum_fin_mul {M : Type*} [AddCommMonoid M] (m n : ℕ) (f : Fin (m * n) → M) :
    ∑ i, f i = ∑ a : Fin m, ∑ b : Fin n,
      f ⟨a.val * n + b.val, by
        have ha := a.isLt; have hb := b.isLt
        calc a.val * n + b.val < a.val * n + n := by omega
          _ = (a.val + 1) * n := by rw [Nat.add_mul, Nat.one_mul]
          _ ≤ m * n := Nat.mul_le_mul_right n ha⟩ := by
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

/-- A rank-1 index set is its coordinate's range … -/
def idxEquiv1 {n : Nat} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The indices of an [n, 1, 1] array are the `(q, 0, 0)` … -/
def idxEquiv3u {n : Nat} : (⟨3, ![n, 1, 1]⟩ : Shape).Idx ≃ Fin n where
  toFun i := i 0
  invFun q := ix3 q (0 : Fin 1) (0 : Fin 1)
  left_inv i := by
    funext a
    match a with
    | ⟨0, _⟩ => rfl
    | ⟨1, _⟩ => exact (Subsingleton.elim (α := Fin 1) _ _)
    | ⟨2, _⟩ => exact (Subsingleton.elim (α := Fin 1) _ _)
  right_inv _ := rfl

/-- … so a sum over them is the sum over `q`. -/
theorem sum_idx3u {M : Type*} [AddCommMonoid M] {n : Nat} (f : (⟨3, ![n, 1, 1]⟩ : Shape).Idx → M) :
    ∑ i, f i = ∑ q : Fin n, f (ix3 q (0 : Fin 1) (0 : Fin 1)) := by
  rw [← Equiv.sum_comp (idxEquiv3u (n := n)).symm f]
  rfl

/-- The sum of a rank-1 concatenation of three pieces is the sum of the three pieces' sums. -/
theorem sum_concat3 {M : Type} [AddCommMonoid M] (n1 n2 n3 : Nat)
    (u : (⟨1, ![n1]⟩ : Shape).Idx → M) (v : (⟨1, ![n2]⟩ : Shape).Idx → M) (w : (⟨1, ![n3]⟩ : Shape).Idx → M)
    (h : Shape.Concatenates [(⟨1, ![n1]⟩ : Shape), ⟨1, ![n2]⟩, ⟨1, ![n3]⟩] ⟨1, ![n1 + n2 + n3]⟩ 0) :
    ∑ j : (⟨1, ![n1 + n2 + n3]⟩ : Shape).Idx,
        concatenate (⟨1, ![n1 + n2 + n3]⟩ : Shape) 0 [⟨(⟨1, ![n1]⟩ : Shape), u⟩, ⟨(⟨1, ![n2]⟩ : Shape), v⟩, ⟨(⟨1, ![n3]⟩ : Shape), w⟩] h j
      = ∑ i, u i + ∑ i, v i + ∑ i, w i := by
  rw [sum_idx1, sum_idx1 u, sum_idx1 v, sum_idx1 w, Fin.sum_univ_add, Fin.sum_univ_add]
  refine congrArg₂ (· + ·) (congrArg₂ (· + ·) ?_ ?_) ?_
  · refine Finset.sum_congr rfl fun k _ => ?_
    exact concatenate_apply_piece (t := (⟨1, ![n1 + n2 + n3]⟩ : Shape)) (0 : Fin 1)
      [⟨(⟨1, ![n1]⟩ : Shape), u⟩, ⟨(⟨1, ![n2]⟩ : Shape), v⟩, ⟨(⟨1, ![n3]⟩ : Shape), w⟩] h
      (ix1 (Fin.castAdd n3 (Fin.castAdd n2 k))) 0 (by simp) (⟨1, ![n1]⟩ : Shape) u rfl rfl 0 rfl (ix1 k)
      (fun b hb => absurd (Subsingleton.elim (α := Fin 1) _ _) hb) (Nat.zero_add _)
  · refine Finset.sum_congr rfl fun k _ => ?_
    exact concatenate_apply_piece (t := (⟨1, ![n1 + n2 + n3]⟩ : Shape)) (0 : Fin 1)
      [⟨(⟨1, ![n1]⟩ : Shape), u⟩, ⟨(⟨1, ![n2]⟩ : Shape), v⟩, ⟨(⟨1, ![n3]⟩ : Shape), w⟩] h
      (ix1 (Fin.castAdd n3 (Fin.natAdd n1 k))) 1 (by simp) (⟨1, ![n2]⟩ : Shape) v rfl rfl n1 (by simp) (ix1 k)
      (fun b hb => absurd (Subsingleton.elim (α := Fin 1) _ _) hb) rfl
  · refine Finset.sum_congr rfl fun k _ => ?_
    exact concatenate_apply_piece (t := (⟨1, ![n1 + n2 + n3]⟩ : Shape)) (0 : Fin 1)
      [⟨(⟨1, ![n1]⟩ : Shape), u⟩, ⟨(⟨1, ![n2]⟩ : Shape), v⟩, ⟨(⟨1, ![n3]⟩ : Shape), w⟩] h
      (ix1 (Fin.natAdd (n1 + n2) k)) 2 (by simp) (⟨1, ![n3]⟩ : Shape) w rfl rfl (n1 + n2) (by simp) (ix1 k)
      (fun b hb => absurd (Subsingleton.elim (α := Fin 1) _ _) hb) rfl

end Cert.IdxSums

end
-- ==== Proof.Spec.lean ====
/-
  The quantised linear layer as ONE function of its argument arrays, over the extended reals.

  A packed word holds eight 4-bit fields; field j of a word q is (q >> 4j) & 15, a number in [0, 15]. Row r of the
  packed weights holds in-features 8r … 8r+7 of every out-feature, column c of the packed zero points holds
  out-features 8c … 8c+7 of every group, stored less one. In-feature K belongs to group K / 128. The dequantised
  weight is (w − z) · scale, and the layer is x · W + bias.

  Both programs compute this function. The kernel subtracts after converting w and z to floats, the reference
  before: the two agree because w − z is a difference of numbers in [0, 16] and cannot wrap. The kernel sums
  K = 1024 k + 128 i + kk over the grid axis k, the loop trips i and the contraction kk; the reference sums K at once:
  addition on the extended reals is commutative and associative, so the sums agree (no finiteness is needed).
-/
import Idealize.ShloMosaic.PureOps.Ideal
import Idealize.ShloMosaic.Lib.ValueIdx
import Mathlib.Algebra.BigOperators.Fin
import proofs.«402971_j62783831933672_3_alg».proof.Proof.LibIdxSums

noncomputable section

open scoped BigOperators

namespace QLin

open Idealize.ShloMosaic Idealize.ShloMosaic.ValueIdx

/-- Field j of a packed word: bits 4j … 4j+3, as a word in [0, 15]. -/
def nib (q : BitVec 32) (j : Fin 8) : BitVec 32 := (q.sshiftRight (4 * j.val)) &&& 15#32

/-- The field number of position n along a packed axis: n mod 8. -/
def fld (n : ℕ) : Fin 8 := ⟨n % 8, Nat.mod_lt _ (by decide)⟩

/-- The weight's integer at in-feature K, out-feature o: field K mod 8 of packed row K / 8. -/
def wq (qw : (⟨2, ![512, 11008]⟩ : Shape).Idx → BitVec 32) (K : Fin 4096) (o : Fin 11008) : BitVec 32 :=
  nib (qw (ix2 (⟨K.val / 8, by omega⟩ : Fin 512) o)) (fld K.val)

/-- The zero point of group g at out-feature o: field o mod 8 of packed column o / 8, plus one. -/
def zq (qz : (⟨2, ![32, 1376]⟩ : Shape).Idx → BitVec 32) (g : Fin 32) (o : Fin 11008) : BitVec 32 :=
  nib (qz (ix2 g (⟨o.val / 8, by omega⟩ : Fin 1376))) (fld o.val) + 1#32

/-- The group of in-feature K. -/
def grp (K : Fin 4096) : Fin 32 := ⟨K.val / 128, by omega⟩

/-- The dequantised weight at (K, o): (w − z) · scale, the difference taken on the extended reals. -/
def wdeq (qw : (⟨2, ![512, 11008]⟩ : Shape).Idx → BitVec 32) (qz : (⟨2, ![32, 1376]⟩ : Shape).Idx → BitVec 32)
    (sc : (⟨2, ![32, 11008]⟩ : Shape).Idx → EReal) (K : Fin 4096) (o : Fin 11008) : EReal :=
  ((((wq qw K o).toInt : ℝ) : EReal) - (((zq qz (grp K) o).toInt : ℝ) : EReal)) * sc (ix2 (grp K) o)

/-- THE LAYER: entry (p, o) is the sum over in-features K of x[p, K] · W[K, o], plus bias[o]. -/
def G (x : (⟨2, ![256, 4096]⟩ : Shape).Idx → EReal) (qw : (⟨2, ![512, 11008]⟩ : Shape).Idx → BitVec 32)
    (qz : (⟨2, ![32, 1376]⟩ : Shape).Idx → BitVec 32) (sc : (⟨2, ![32, 11008]⟩ : Shape).Idx → EReal)
    (b : (⟨1, ![11008]⟩ : Shape).Idx → EReal) : (⟨2, ![256, 11008]⟩ : Shape).Idx → EReal :=
  fun y => (∑ K : Fin 4096, x (ix2 (y 0) K) * wdeq qw qz sc K (y 1)) + b (ix1 (y 1))

theorem G_ix2 (x qw qz sc b) (p : Fin 256) (o : Fin 11008) :
    G x qw qz sc b (ix2 p o) = (∑ K : Fin 4096, x (ix2 p K) * wdeq qw qz sc K o) + b (ix1 o) := rfl

/-! ## Fields of a word -/

/-- A field is at most 15. -/
theorem nib_toNat_le (q : BitVec 32) (j : Fin 8) : (nib q j).toNat ≤ 15 := by
  unfold nib
  rw [BitVec.toNat_and]
  exact Nat.and_le_right

/-- Read signed, a field is its unsigned value. -/
theorem nib_toInt (q : BitVec 32) (j : Fin 8) : (nib q j).toInt = ((nib q j).toNat : ℤ) := by
  have h := nib_toNat_le q j
  rw [BitVec.toInt_eq_toNat_of_lt (by omega)]

/-- A field plus one, read signed, is the field's value plus one. -/
theorem nib_succ_toInt (q : BitVec 32) (j : Fin 8) : (nib q j + 1#32).toInt = ((nib q j).toNat : ℤ) + 1 := by
  have h := nib_toNat_le q j
  have h1 : (nib q j + 1#32).toNat = (nib q j).toNat + 1 := by
    rw [BitVec.toNat_add]; simp; omega
  rw [BitVec.toInt_eq_toNat_of_lt (by omega), h1]; push_cast; rfl

/-- The difference of a field and a field plus one does not wrap. -/
theorem toInt_sub_fields (q q' : BitVec 32) (j j' : Fin 8) :
    (nib q j - (nib q' j' + 1#32)).toInt = (nib q j).toInt - (nib q' j' + 1#32).toInt := by
  have h := nib_toNat_le q j
  have h' := nib_toNat_le q' j'
  rw [BitVec.toInt_sub, nib_toInt, nib_succ_toInt]
  simp only [Int.bmod]
  omega

/-- Converting the integer difference to a float is the difference of the converted integers, on the extended reals. -/
theorem coe_toInt_sub_fields (q q' : BitVec 32) (j j' : Fin 8) :
    ((((nib q j - (nib q' j' + 1#32)).toInt : ℝ)) : EReal)
      = (((nib q j).toInt : ℝ) : EReal) - ((((nib q' j' + 1#32)).toInt : ℝ) : EReal) := by
  rw [toInt_sub_fields, Int.cast_sub, EReal.coe_sub]

/-- An arithmetic right shift by 4j (on any unit: the amount is below the width) masked with 15 is field j. -/
theorem andi_shrsi_eq_nib (u : ArithUnit) (q s : BitVec 32) (j : Fin 8) (hs : s.toNat = 4 * j.val) :
    IntOp.andi (IntOp.shrsi u q s) 15#32 = nib q j := by
  unfold IntOp.andi IntOp.shrsi nib
  rw [if_pos (by omega), BitVec.sshiftRight', hs]

/-- The shift amount as the kernel spells it: lane number times four. -/
theorem amount_kernel (j : Fin 8) : (IntOp.muli (BitVec.ofNat 32 j.val) 4#32).toNat = 4 * j.val := by
  revert j; decide

/-- The shift amount as the host programs spell it: zero plus four times the lane number. -/
theorem amount_host (j : Fin 8) : (IntOp.addi 0#32 (IntOp.muli 4#32 (BitVec.ofNat 32 j.val))).toNat = 4 * j.val := by
  revert j; decide

/-! ## The sum over in-features, tile by tile -/

/-- A sum over the 4096 in-features is the sum over the four grid steps k, the eight loop trips i and the 128 rows kk
    of a group, of the entry 1024 k + 128 i + kk. -/
theorem sum_tiles {M : Type*} [AddCommMonoid M] (f : Fin 4096 → M) :
    ∑ K, f K = ∑ k : Fin 4, ∑ i : Fin 8, ∑ kk : Fin 128,
      f ⟨k.val * 1024 + i.val * 128 + kk.val, by have := k.isLt; have := i.isLt; have := kk.isLt; omega⟩ := by
  refine (Cert.IdxSums.sum_fin_mul 4 1024 (fun K : Fin (4 * 1024) => f K)).trans ?_
  refine Finset.sum_congr rfl fun k _ => ?_
  refine (Cert.IdxSums.sum_fin_mul 8 128
    (fun b : Fin (8 * 128) => f ⟨k.val * 1024 + b.val, by have := k.isLt; have := b.isLt; omega⟩)).trans ?_
  refine Finset.sum_congr rfl fun i _ => Finset.sum_congr rfl fun kk _ => congrArg f (Fin.ext ?_)
  show k.val * 1024 + (i.val * 128 + kk.val) = k.val * 1024 + i.val * 128 + kk.val
  omega

end QLin

end
-- ==== Proof.LibPlainDot.lean ====
/-
  A plain matrix product read at an index, generic in the sizes. For dimension numbers that contract the left
  operand's columns with the right operand's rows, with no batch axis (rows × contraction times contraction ×
  columns), the sum over the contraction shape's indices of the operands' products at the dot's operand indices is the
  sum over k < K of l[p, k] · r[k, q]. A kernel's matrix unit into a zero accumulator and the host's dot both read
  through it at the ideal values. Imports only the library.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : Nat} (D : DotDims ⟨2, ![M, K]⟩ ⟨2, ![K, N]⟩ ⟨2, ![M, N]⟩)

/-- Two spellings of one axis position read the same coordinate. -/
theorem coord_val_congr {s : Shape} (j : s.Idx) (p q : Nat) (hp : p < s.rank) (hq : q < s.rank) (h : p = q) :
    (j ⟨p, hp⟩).val = (j ⟨q, hq⟩).val := by subst h; rfl

/-- The left operand's row is the result's row: axis 0 is the left operand's one free axis, first among the result's. -/
theorem lhs_row (hlb : D.lhsBatch = []) (hln : D.lhsNonContracting = [0]) (p : Fin M) (q : Fin N) (k : D.contr.Idx) :
    (D.lhsIdx (ix2 p q) k 0).val = p.val := by
  unfold DotDims.lhsIdx
  rw [dif_neg (by rw [hlb]; exact List.not_mem_nil), dif_pos (by rw [hln]; exact List.mem_singleton.mpr rfl)]
  simp only [Fin.val_cast]
  exact coord_val_congr (ix2 p q) _ 0 _ (show 0 < 2 by omega) (by simp [hlb, hln])

/-- The right operand's column is the result's column: axis 1 is the right operand's one free axis, second among the result's. -/
theorem rhs_col (hlb : D.lhsBatch = []) (hrb : D.rhsBatch = []) (hln : D.lhsNonContracting = [0]) (hrn : D.rhsNonContracting = [1])
    (p : Fin M) (q : Fin N) (k : D.contr.Idx) : (D.rhsIdx (ix2 p q) k 1).val = q.val := by
  unfold DotDims.rhsIdx
  rw [dif_neg (by rw [hrb]; exact List.not_mem_nil), dif_pos (by rw [hrn]; exact List.mem_singleton.mpr rfl)]
  simp only [Fin.val_cast]
  exact coord_val_congr (ix2 p q) _ 1 _ (show 1 < 2 by omega) (by simp [hlb, hln, hrn])

/-- The product at result index (p, q): the contraction re-indexed by its one coordinate. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  have hr : D.contr.rank = 1 := by rw [D.rank_contr, hlc]; rfl
  have hs : D.contr.size ⟨0, by omega⟩ = K := by
    have h := D.size_contr 0 (by rw [hlc]; exact Nat.one_pos)
    rw [h]; simp [hlc]
  rw [← Equiv.sum_comp (contrEquiv1 D K hr hs).symm]
  refine Finset.sum_congr rfl fun k _ => ?_
  have hk := contrEquiv1_symm_val D K hr hs k
  have e1 : D.lhsIdx (ix2 p q) ((contrEquiv1 D K hr hs).symm k) = ix2 p k := by
    funext a
    match a with
    | ⟨0, _⟩ => exact Fin.ext (lhs_row D hlb hln p q _)
    | ⟨1, _⟩ => exact Fin.ext ((D.lhsIdx_val_of_single hlc (ix2 p q) _).trans hk)
  have e2 : D.rhsIdx (ix2 p q) ((contrEquiv1 D K hr hs).symm k) = ix2 k q := by
    funext a
    match a with
    | ⟨0, _⟩ => exact Fin.ext ((D.rhsIdx_val_of_single hrc (ix2 p q) _).trans hk)
    | ⟨1, _⟩ => exact Fin.ext (rhs_col D hlb hrb hln hrn p q _)
  rw [e1, e2]

/-- The matrix product as a function of the result index: entry (p, q) is ∑_k l[p, k] · r[k, q] on the extended reals. -/
def matProd (l : (⟨2, ![M, K]⟩ : Shape).Idx → EReal) (r : (⟨2, ![K, N]⟩ : Shape).Idx → EReal) :
    (⟨2, ![M, N]⟩ : Shape).Idx → EReal :=
  fun y => ∑ k : Fin K, l (ix2 (y 0) k) * r (ix2 k (y 1))

theorem matProd_ix2 (l : (⟨2, ![M, K]⟩ : Shape).Idx → EReal) (r : (⟨2, ![K, N]⟩ : Shape).Idx → EReal) (p : Fin M) (q : Fin N) :
    matProd l r (ix2 p q) = ∑ k : Fin K, l (ix2 p k) * r (ix2 k q) := rfl

/-- The matrix unit's product into the zero accumulator, at the ideal values, is the matrix product. -/
theorem matmul_zero_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) :
    FloatOps.matmul D prec l r (constant ⟨2, ![M, N]⟩ .f32 0x00000000#32) = matProd (M := M) (K := K) (N := N) l r := by
  funext y
  obtain ⟨p, q, rfl⟩ : ∃ (p : Fin M) (q : Fin N), y = ix2 p q := ⟨y 0, y 1, eq_ix2 y⟩
  rw [Ideal.matmul_constant_zero_apply, matProd_ix2]
  exact sum_plain D hlc hrc hln hrn hlb hrb l r p q

/-- The host's dot, at the ideal values, is the matrix product, whatever its precision and schedule keys. -/
theorem dotGeneral_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision) (sched : HostSchedule)
    (l : FVec Ideal ⟨2, ![M, K]⟩ φ₁) (r : FVec Ideal ⟨2, ![K, N]⟩ φ₂) :
    FloatOps.dotGeneral D prec sched l r = matProd (M := M) (K := K) (N := N) l r := by
  funext y
  obtain ⟨p, q, rfl⟩ : ∃ (p : Fin M) (q : Fin N), y = ix2 p q := ⟨y 0, y 1, eq_ix2 y⟩
  rw [Ideal.dotGeneral_apply, matProd_ix2]
  exact sum_plain D hlc hrc hln hrn hlb hrb l r p q

end Cert.LibPlainDot

end
-- ==== Proof.KernelPay.lean ====
/-
  The kernel body's stored values read at an index, on the extended reals.
-/
import proofs.«402971_j62783831933672_3_alg».proof.Proof.Gen.KernelIdeal.Skeleton
import proofs.«402971_j62783831933672_3_alg».proof.Proof.Spec
import proofs.«402971_j62783831933672_3_alg».proof.Proof.LibPlainDot
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The dequantised weight block, piece by piece -/

/-- Merging the packed-row axis with the eight lanes: row kk of the 128 is lane kk mod 8 of packed row kk / 8. -/
theorem merge_apply {α : Type} (x : S16x8x5504.Idx → α) (kk : Fin 128) (q : Fin 5504) :
    shapeCast S128x5504 x shapeCasts_S16x8x5504_S128x5504 (ix2 kk q)
      = x (ix3 (⟨kk.val / 8, by omega⟩ : Fin 16) (⟨kk.val % 8, by omega⟩ : Fin 8) q) :=
  shapeCast_apply x _ _ _ (by
    rw [Shape.rowMajor_val_three, Shape.rowMajor_val_two]
    show (kk.val / 8 * 8 + kk.val % 8) * 5504 + q.val = kk.val * 5504 + q.val
    omega)

/-- A packed word copied over the eight lanes: every lane of packed row a reads the word of row a. -/
theorem word_apply {α : Type} (x : S16x5504.Idx → α) (a : Fin 16) (b : Fin 8) (q : Fin 5504) :
    broadcastTo S16x8x5504 (shapeCast S16x1x5504 x shapeCasts_S16x5504_S16x1x5504) broadcasts_S16x1x5504_S16x8x5504
      (ix3 a b q) = x (ix2 a q) := by
  refine (broadcastTo_apply _ _ (ix3 a b q) (ix3 a (0 : Fin 1) q) fun ax => ?_).trans ?_
  · match ax with
    | ⟨0, _⟩ => rfl
    | ⟨1, _⟩ => rfl
    | ⟨2, _⟩ => rfl
  · exact shapeCast_apply x _ _ _ (by
      rw [Shape.rowMajor_val_three, Shape.rowMajor_val_two]
      show a.val * 5504 + q.val = (a.val * 1 + 0) * 5504 + q.val
      omega)

/-- The shift amount of lane b, copied over rows and columns: the lane number times four. -/
theorem amount_apply (a : Fin 16) (b : Fin 8) (q : Fin 5504) :
    broadcastTo S16x8x5504 (muli (iota .tc S1x8x1 32 [1] iota_S1x8x1_d1_w32) (broadcast S1x8x1 4#32))
      broadcasts_S1x8x1_S16x8x5504 (ix3 a b q) = IntOp.muli (BitVec.ofNat 32 b.val) 4#32 := by
  refine (broadcastTo_apply _ _ (ix3 a b q) (ix3 (0 : Fin 1) b (0 : Fin 1)) fun ax => ?_).trans ?_
  · match ax with
    | ⟨0, _⟩ => rfl
    | ⟨1, _⟩ => rfl
    | ⟨2, _⟩ => rfl
  · show IntOp.muli (iota .tc S1x8x1 32 [1] iota_S1x8x1_d1_w32 (ix3 (0 : Fin 1) b (0 : Fin 1))) 4#32 = _
    rw [iota_single_apply]

/-- The unpacked integer at packed row a, lane b: field b of the row's word. -/
theorem field_apply (v19 : IVec S16x5504 32) (a : Fin 16) (b : Fin 8) (q : Fin 5504) :
    andi
        (shrsi
          (broadcastTo S16x8x5504 (shapeCast S16x1x5504 v19 shapeCasts_S16x5504_S16x1x5504) broadcasts_S16x1x5504_S16x8x5504)
          (broadcastTo S16x8x5504 (muli (iota .tc S1x8x1 32 [1] iota_S1x8x1_d1_w32) (broadcast S1x8x1 4#32))
            broadcasts_S1x8x1_S16x8x5504))
        (broadcast S16x8x5504 15#32) (ix3 a b q)
      = QLin.nib (v19 (ix2 a q)) b := by
  show IntOp.andi (IntOp.shrsi .vector
      (broadcastTo S16x8x5504 (shapeCast S16x1x5504 v19 shapeCasts_S16x5504_S16x1x5504) broadcasts_S16x1x5504_S16x8x5504 (ix3 a b q))
      (broadcastTo S16x8x5504 (muli (iota .tc S1x8x1 32 [1] iota_S1x8x1_d1_w32) (broadcast S1x8x1 4#32))
        broadcasts_S1x8x1_S16x8x5504 (ix3 a b q))) 15#32 = _
  rw [word_apply, amount_apply]
  exact QLin.andi_shrsi_eq_nib .vector _ _ b (QLin.amount_kernel b)

/-- A group's row of zero points or scales, narrowed and copied down the 128 rows: every row reads the row's entry. -/
theorem row_apply (v : FVec Ideal S1x5504 .f32) (kk : Fin 128) (q : Fin 5504) :
    broadcastTo S128x5504
        (shapeCast S1x5504 (truncf .bf16 (shapeCast S5504 v shapeCasts_S1x5504_S5504) bitsLt_bf16_f32) shapeCasts_S5504_S1x5504)
        broadcasts_S1x5504_S128x5504 (ix2 kk q)
      = v (ix2 (0 : Fin 1) q) := by
  refine (broadcastTo_1b_ab_apply _ _ kk q).trans ?_
  refine (shapeCast_a_1a_apply _ _ (0 : Fin 1) q).trans ?_
  refine (truncf_apply (ψ := .bf16) (shapeCast S5504 v shapeCasts_S1x5504_S5504) bitsLt_bf16_f32 (ix1 q)).trans ?_
  exact shapeCast_1a_a_apply _ _ q

/-- The dequantised weight of row kk, column q of the group's block: (field − zero point) · scale. -/
theorem weight_apply (v19 : IVec S16x5504 32) (v29 v33 : FVec Ideal S1x5504 .f32) (kk : Fin 128) (q : Fin 5504) :
    mulf
        (subf
          (shapeCast S128x5504
            (sitofp (F := Ideal) .bf16
              (andi
                (shrsi
                  (broadcastTo S16x8x5504 (shapeCast S16x1x5504 v19 shapeCasts_S16x5504_S16x1x5504) broadcasts_S16x1x5504_S16x8x5504)
                  (broadcastTo S16x8x5504 (muli (iota .tc S1x8x1 32 [1] iota_S1x8x1_d1_w32) (broadcast S1x8x1 4#32))
                    broadcasts_S1x8x1_S16x8x5504))
                (broadcast S16x8x5504 15#32)))
            shapeCasts_S16x8x5504_S128x5504)
          (broadcastTo S128x5504
            (shapeCast S1x5504 (truncf .bf16 (shapeCast S5504 v29 shapeCasts_S1x5504_S5504) bitsLt_bf16_f32) shapeCasts_S5504_S1x5504)
            broadcasts_S1x5504_S128x5504))
        (broadcastTo S128x5504
          (shapeCast S1x5504 (truncf .bf16 (shapeCast S5504 v33 shapeCasts_S1x5504_S5504) bitsLt_bf16_f32) shapeCasts_S5504_S1x5504)
          broadcasts_S1x5504_S128x5504) (ix2 kk q)
      = ((((QLin.nib (v19 (ix2 (⟨kk.val / 8, by omega⟩ : Fin 16) q)) (QLin.fld kk.val)).toInt : ℝ) : EReal)
          - v29 (ix2 (0 : Fin 1) q)) * v33 (ix2 (0 : Fin 1) q) := by
  refine (mulf_apply _ _ _).trans ?_
  rw [row_apply v33 kk q]
  refine congrArg (· * v33 (ix2 (0 : Fin 1) q)) ?_
  refine (subf_apply _ _ _).trans ?_
  rw [row_apply v29 kk q]
  refine congrArg (· - v29 (ix2 (0 : Fin 1) q)) ?_
  refine (merge_apply _ kk q).trans ?_
  refine (sitofp_apply _ _).trans ?_
  show (((_ : BitVec 32).toInt : ℝ) : EReal) = _
  rw [field_apply]
  rfl

/-- One loop trip: the accumulator plus the product of the x columns of this group with the group's dequantised
    weights — row kk of the 128 is field kk mod 8 of packed row kk / 8, less the group's zero point, times its scale. -/
theorem pay3_apply (acc : FVec Ideal S256x5504 .f32) (v19 : Vec Ideal S16x5504 .i32) (v29 v33 : Vec Ideal S1x5504 .f32)
    (v47 : Vec Ideal S256x128 .bf16) (p : Fin 256) (q : Fin 5504) :
    k0_pay3 (F := Ideal) acc v19 v29 v33 v47 (ix2 p q)
      = acc (ix2 p q) + ∑ kk : Fin 128, v47 (ix2 p kk)
          * (((((QLin.nib (v19 (ix2 (⟨kk.val / 8, by omega⟩ : Fin 16) q)) (QLin.fld kk.val)).toInt : ℝ) : EReal)
              - v29 (ix2 (0 : Fin 1) q)) * v33 (ix2 (0 : Fin 1) q)) := by
  unfold k0_pay3
  dsimp only
  refine (addf_apply _ _ _).trans ?_
  refine congrArg (acc (ix2 p q) + ·) ?_
  simp only [matmul]
  rw [Cert.LibPlainDot.matmul_zero_eq_matProd dot_S256x128_S128x5504_S256x5504_1_0_0_1_n_n rfl rfl rfl rfl rfl rfl,
    Cert.LibPlainDot.matProd_ix2]
  refine Finset.sum_congr rfl fun kk _ => ?_
  rw [shapeCast_self]
  exact congrArg (v47 (ix2 p kk) * ·) (weight_apply v19 v29 v33 kk q)

/-- The zero splat the output window is initialised with. -/
theorem pay1_apply (j : S256x5504.Idx) : k0_pay1 (F := Ideal) j = 0 := by
  unfold k0_pay1
  exact Ideal.ofBits_zero_f32

/-- The zero splat the loop's accumulator starts from. -/
theorem pay2_apply (j : S256x5504.Idx) : k0_pay2 (F := Ideal) j = 0 := by
  unfold k0_pay2
  exact Ideal.ofBits_zero_f32

/-- After the loop: the window's contents plus the loop's result. -/
theorem pay4_apply (v8 : FVec Ideal S256x5504 .f32) (v9 : Vec Ideal S256x5504 .f32) (j : S256x5504.Idx) :
    k0_pay4 (F := Ideal) v8 v9 j = v9 j + v8 j := by
  unfold k0_pay4
  refine (addf_apply _ _ _).trans ?_
  rw [shapeCast_self]

/-- At the last grid step: the window's contents plus the bias row, copied down the 256 rows. -/
theorem pay5_apply (v16 : Vec Ideal S256x5504 .f32) (v18 : Vec Ideal S1x5504 .f32) (p : Fin 256) (q : Fin 5504) :
    k0_pay5 (F := Ideal) v16 v18 (ix2 p q) = v16 (ix2 p q) + v18 (ix2 (0 : Fin 1) q) := by
  unfold k0_pay5
  refine (addf_apply _ _ _).trans ?_
  rw [shapeCast_self, shapeCast_self]
  exact congrArg (v16 (ix2 p q) + ·) (broadcastTo_1b_ab_apply v18 broadcasts_S1x5504_S256x5504 p q)

end Cert.KernelIdeal.Pay

end
-- ==== Proof.KernelHost.lean ====
/-
  What the kernel's region finds in the arrays its host operations made: x unchanged (a change of float format is the
  identity on the extended reals), the zero points unpacked and converted, the bias as one row.
-/
import proofs.«402971_j62783831933672_3_alg».proof.Proof.Gen.KernelIdeal.Frame
import proofs.«402971_j62783831933672_3_alg».proof.Proof.Spec
import Idealize.ShloMosaic.Lib.ValueLayout

noncomputable section

namespace Cert.KernelIdeal.HostSide

open Cert.KernelIdeal Cert.KernelIdeal.Gen Idealize.ShloMosaic Idealize.ShloMosaic.TcCoe Idealize.SL.Sem
open Idealize.ShloMosaic.ValueIdx

/-! ## The zero points, unpacked

The host operations lay the packed zero points out as [32, 1376, 8]: entry (g, c, j) is word (g, c) shifted right
(arithmetically) by 0 + 4·j, masked with 15, plus one; that is field j of the word, plus one. The array is then read
row-major as [32, 11008], so that out-feature o = 8c + j sits at (g, o / 8, o mod 8), and converted to floats. -/

/-- The host's shift amounts: lane j of the eight holds 0 + 4·j. -/
def amounts : S8.Idx → BitVec 32 :=
  addi (broadcastInDim S8 ![] bcast_S_S8 (constantI S_ 32 0#32))
    (muli (broadcastInDim S8 ![] bcast_S_S8 (constantI S_ 32 4#32)) (iotaInDim S8 32 0))

/-- The zero points as the host operations unpack them, before the conversion. -/
def unpacked (qz : S32x1376.Idx → BitVec 32) : S32x1376x8.Idx → BitVec 32 :=
  addi (andi (Host.shrsi
        (broadcastInDim S32x1376x8 ![0, 1, 2] bcast_S32x1376x1_S32x1376x8_0_1_2
          (broadcastInDim S32x1376x1 ![0, 1] bcast_S32x1376_S32x1376x1_0_1 qz))
        (broadcastInDim S32x1376x8 ![0, 1, 2] bcast_S1x1x8_S32x1376x8_0_1_2
          (broadcastInDim S1x1x8 ![2] bcast_S8_S1x1x8_2 amounts)))
      (broadcastInDim S32x1376x8 ![] bcast_S_S32x1376x8 (constantI S_ 32 15#32)))
    (broadcastInDim S32x1376x8 ![] bcast_S_S32x1376x8 (constantI S_ 32 1#32))

/-- Lane j's shift amount. -/
theorem amounts_apply (j : Fin 8) :
    amounts (ix1 j) = IntOp.addi 0#32 (IntOp.muli 4#32 (BitVec.ofNat 32 j.val)) := rfl

/-- Entry (g, c, j) of the unpacked zero points is field j of word (g, c), plus one. -/
theorem unpacked_apply (qz : S32x1376.Idx → BitVec 32) (g : Fin 32) (c8 : Fin 1376) (j : Fin 8) :
    unpacked qz (ix3 g c8 j) = QLin.nib (qz (ix2 g c8)) j + 1#32 := by
  have e1 : broadcastInDim S32x1376x8 ![0, 1, 2] bcast_S32x1376x1_S32x1376x8_0_1_2
      (broadcastInDim S32x1376x1 ![0, 1] bcast_S32x1376_S32x1376x1_0_1 qz) (ix3 g c8 j) = qz (ix2 g c8) := by
    rw [broadcastInDim_apply _ _ _ (ix3 g c8 j) (ix3 g c8 (0 : Fin 1)) (by
          intro a
          match a with
          | ⟨0, _⟩ => rfl
          | ⟨1, _⟩ => rfl
          | ⟨2, _⟩ => rfl),
      broadcastInDim_apply _ _ _ (ix3 g c8 (0 : Fin 1)) (ix2 g c8) (by
          intro a
          match a with
          | ⟨0, _⟩ => rfl
          | ⟨1, _⟩ => rfl)]
  have e2 : broadcastInDim S32x1376x8 ![0, 1, 2] bcast_S1x1x8_S32x1376x8_0_1_2
      (broadcastInDim S1x1x8 ![2] bcast_S8_S1x1x8_2 amounts) (ix3 g c8 j) = amounts (ix1 j) := by
    rw [broadcastInDim_apply _ _ _ (ix3 g c8 j) (ix3 (0 : Fin 1) (0 : Fin 1) j) (by
          intro a
          match a with
          | ⟨0, _⟩ => rfl
          | ⟨1, _⟩ => rfl
          | ⟨2, _⟩ => rfl),
      broadcastInDim_apply _ _ _ (ix3 (0 : Fin 1) (0 : Fin 1) j) (ix1 j) (by
          intro a
          match a with
          | ⟨0, _⟩ => rfl)]
  show IntOp.addi (IntOp.andi (IntOp.shrsi .host
      (broadcastInDim S32x1376x8 ![0, 1, 2] bcast_S32x1376x1_S32x1376x8_0_1_2
        (broadcastInDim S32x1376x1 ![0, 1] bcast_S32x1376_S32x1376x1_0_1 qz) (ix3 g c8 j))
      (broadcastInDim S32x1376x8 ![0, 1, 2] bcast_S1x1x8_S32x1376x8_0_1_2
        (broadcastInDim S1x1x8 ![2] bcast_S8_S1x1x8_2 amounts) (ix3 g c8 j))) 15#32) 1#32 = _
  rw [e1, e2, amounts_apply, QLin.andi_shrsi_eq_nib .host _ _ j (QLin.amount_host j)]
  rfl

variable (m : (ℓ : Loc nD τ sig) → Buf (Elt Ideal) ℓ)

/-- The first host operation narrows x to a 16-bit float format; on the extended reals that changes nothing. -/
theorem V_main_v0_eq (c : Dev nD) :
    (V m c main_v0 : S256x4096.Idx → EReal) =
      truncf (F := Ideal) .bf16 (m ((c : Thread nD τ).loc main_arg0) : S256x4096.Idx → EReal) bitsLt_bf16_f32 := by
  dsimp only [Gen.V, Gen.hostOps0]
  after_results

/-- The converted zero points, as one term of the packed array the program was launched with. -/
theorem V_main_v16_eq (c : Dev nD) :
    (V m c main_v16 : S32x11008.Idx → EReal) =
      sitofp (F := Ideal) .f32 (shapeCast S32x11008 (unpacked (m ((c : Thread nD τ).loc main_arg2)))
        shapeCasts_S32x1376x8_S32x11008) := by
  dsimp only [Gen.V, Gen.hostOps0]
  after_results
  rfl

/-- The bias, recast from [11008] to [1, 11008]. -/
theorem V_main_v17_eq (c : Dev nD) :
    (V m c main_v17 : S1x11008.Idx → EReal) =
      shapeCast S1x11008 (m ((c : Thread nD τ).loc main_arg4) : S11008.Idx → EReal) shapeCasts_S11008_S1x11008 := by
  dsimp only [Gen.V, Gen.hostOps0]
  after_results
  rfl

/-- The region's first operand is x itself. -/
theorem V_main_v0_apply (c : Dev nD) (i : S256x4096.Idx) :
    V m c main_v0 i = m ((c : Thread nD τ).loc main_arg0) i :=
  congrFun (V_main_v0_eq m c) i

/-- The region's third operand at (g, o) is the zero point of group g at out-feature o, converted. -/
theorem V_main_v16_apply (c : Dev nD) (g : Fin 32) (o : Fin 11008) :
    V m c main_v16 (ix2 g o) = (((QLin.zq (m ((c : Thread nD τ).loc main_arg2)) g o).toInt : ℝ) : EReal) := by
  refine (congrFun (V_main_v16_eq m c) (ix2 g o)).trans ?_
  rw [sitofp_apply, shapeCast_apply _ _ (ix2 g o)
    (ix3 g (⟨o.val / 8, by omega⟩ : Fin 1376) (⟨o.val % 8, Nat.mod_lt _ (by decide)⟩ : Fin 8)) (by
      rw [Shape.rowMajor_val_three, Shape.rowMajor_val_two]
      show (g.val * 1376 + o.val / 8) * 8 + o.val % 8 = g.val * 11008 + o.val
      omega), unpacked_apply]
  rfl

/-- The region's fifth operand is the bias as one row. -/
theorem V_main_v17_apply (c : Dev nD) (o : Fin 11008) :
    V m c main_v17 (ix2 (0 : Fin 1) o) = m ((c : Thread nD τ).loc main_arg4) (ix1 o) := by
  refine (congrFun (V_main_v17_eq m c) (ix2 (0 : Fin 1) o)).trans ?_
  exact shapeCast_a_1a_apply _ _ (0 : Fin 1) o

end Cert.KernelIdeal.HostSide

end
-- ==== Proof.KernelPieces.lean ====
/-
  What one run of the kernel body leaves in the output block, case by case, as values.

  The body zeroes the output block at the first step of the reduction axis, runs its eight-trip loop — each trip loads
  sixteen packed weight rows, the group's zero-point and scale rows and 128 columns of x, and adds their product to the
  carried accumulator —, adds the loop's result to the output block, and at the last step of the axis adds the bias row.
  So at a first step the block ends at 0 + L, at a middle step at (what the step before left) + L, at a last step at
  (what the step before left) + L + bias, L the accumulator after the eighth trip; and a trip takes the accumulator a to
  the trip's stored value of a and the four loaded blocks.
-/
import proofs.«402971_j62783831933672_3_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic
open Idealize.SL Idealize.SL.Sem

variable {F : FTy → Type} [FloatOps F]

theorem hz2 : (![0, 0] : Fin 2 → ℕ) = fun _ => 0 := by
  funext a; match a with | ⟨0, _⟩ => rfl | ⟨1, _⟩ => rfl

/-- The accumulator after the loop's last trip, the input buffers holding x0 … x3. -/
abbrev loopVal (c : Dev nD) (i : grid0.Coords) (arg2 : Memref sig .tc .vmem S256x4096 .bf16) (harg2 : arg2.IsWhole) (arg3 : Memref sig .tc .vmem S128x5504 .i32) (harg3 : arg3.IsWhole) (arg4 : Memref sig .tc .vmem S8x5504 .f32) (harg4 : arg4.IsWhole) (arg5 : Memref sig .tc .vmem S8x5504 .f32) (harg5 : arg5.IsWhole) (arg6 : Memref sig .tc .vmem S1x5504 .f32) (harg6 : arg6.IsWhole) (arg7 : Memref sig .tc .vmem S256x5504 .f32) (harg7 : arg7.IsWhole) (x0 : Vec F S256x4096 .bf16) (x1 : Vec F S128x5504 .i32) (x2 : Vec F S8x5504 .f32) (x3 : Vec F S8x5504 .f32) : FVec F S256x5504 .f32 :=
  st_k0_t1 Variants.none c none i arg2 harg2 arg3 harg3 arg4 harg4 arg5 harg5 arg6 harg6 arg7 harg7
    (harg2.unread x0) (harg3.unread x1) (harg4.unread x2) (harg5.unread x3) k0_pay2 k0_t1_loop.trips

/-- A first step of the reduction axis: the zero block, then the zero block plus the loop's result. -/
theorem out_A (c : Dev nD) (i : grid0.Coords) (arg2 : Memref sig .tc .vmem S256x4096 .bf16) (harg2 : arg2.IsWhole) (arg3 : Memref sig .tc .vmem S128x5504 .i32) (harg3 : arg3.IsWhole) (arg4 : Memref sig .tc .vmem S8x5504 .f32) (harg4 : arg4.IsWhole) (arg5 : Memref sig .tc .vmem S8x5504 .f32) (harg5 : arg5.IsWhole) (arg6 : Memref sig .tc .vmem S1x5504 .f32) (harg6 : arg6.IsWhole) (arg7 : Memref sig .tc .vmem S256x5504 .f32) (harg7 : arg7.IsWhole) (hc0 : cond0_0 i) (hc1 : ¬cond0_1 i) (x0 : Vec F S256x4096 .bf16) (x1 : Vec F S128x5504 .i32) (x2 : Vec F S8x5504 .f32) (x3 : Vec F S8x5504 .f32) (x4 : Vec F S1x5504 .f32) :
    out0_A_5 c i arg2 harg2 arg3 harg3 arg4 harg4 arg5 harg5 arg6 harg6 arg7 harg7 hc0 hc1 x0 x1 x2 x3 x4 = k0_pay4 (loopVal c i arg2 harg2 arg3 harg3 arg4 harg4 arg5 harg5 arg6 harg6 arg7 harg7 x0 x1 x2 x3) k0_pay1 := by
  unfold out0_A_5
  rw [View.read_writes_eq_canon _ _ _ (cover0_A_5 c i arg2 harg2 arg3 harg3 arg4 harg4 arg5 harg5 arg6 harg6 arg7 harg7 hc0 hc1 x0 x1 x2 x3 x4)]
  unfold kernelRun0_A
  dsimp only
  sl_unfold_words
  rw [View.canon_cons_unit_zero (S := S256x5504) hz2, View.readCov_unit_zero (S := S256x5504) _ hz2]

/-- A middle step: what the step before left, plus the loop's result. -/
theorem out_B (c : Dev nD) (i : grid0.Coords) (arg2 : Memref sig .tc .vmem S256x4096 .bf16) (harg2 : arg2.IsWhole) (arg3 : Memref sig .tc .vmem S128x5504 .i32) (harg3 : arg3.IsWhole) (arg4 : Memref sig .tc .vmem S8x5504 .f32) (harg4 : arg4.IsWhole) (arg5 : Memref sig .tc .vmem S8x5504 .f32) (harg5 : arg5.IsWhole) (arg6 : Memref sig .tc .vmem S1x5504 .f32) (harg6 : arg6.IsWhole) (arg7 : Memref sig .tc .vmem S256x5504 .f32) (harg7 : arg7.IsWhole) (hc0 : ¬cond0_0 i) (hc1 : ¬cond0_1 i) (x0 : Vec F S256x4096 .bf16) (x1 : Vec F S128x5504 .i32) (x2 : Vec F S8x5504 .f32) (x3 : Vec F S8x5504 .f32) (x4 : Vec F S1x5504 .f32) (xo5 : Vec F S256x5504 .f32) :
    out0_B_5 c i arg2 harg2 arg3 harg3 arg4 harg4 arg5 harg5 arg6 harg6 arg7 harg7 hc0 hc1 x0 x1 x2 x3 x4 xo5 = k0_pay4 (loopVal c i arg2 harg2 arg3 harg3 arg4 harg4 arg5 harg5 arg6 harg6 arg7 harg7 x0 x1 x2 x3) xo5 := by
  unfold out0_B_5
  rw [View.read_writes_eq_canon _ _ _ (cover0_B_5 c i arg2 harg2 arg3 harg3 arg4 harg4 arg5 harg5 arg6 harg6 arg7 harg7 hc0 hc1 x0 x1 x2 x3 x4 xo5)]
  unfold kernelRun0_B
  dsimp only
  sl_unfold_words
  rw [View.canon_unit_zero hz2]
  simp only [View.readAt_eq_ld, harg7.read_unread, View.ld_unit_zero (S := S256x5504) hz2]

/-- A last step: what the step before left, plus the loop's result, plus the bias row. -/
theorem out_C (c : Dev nD) (i : grid0.Coords) (arg2 : Memref sig .tc .vmem S256x4096 .bf16) (harg2 : arg2.IsWhole) (arg3 : Memref sig .tc .vmem S128x5504 .i32) (harg3 : arg3.IsWhole) (arg4 : Memref sig .tc .vmem S8x5504 .f32) (harg4 : arg4.IsWhole) (arg5 : Memref sig .tc .vmem S8x5504 .f32) (harg5 : arg5.IsWhole) (arg6 : Memref sig .tc .vmem S1x5504 .f32) (harg6 : arg6.IsWhole) (arg7 : Memref sig .tc .vmem S256x5504 .f32) (harg7 : arg7.IsWhole) (hc0 : ¬cond0_0 i) (hc1 : cond0_1 i) (x0 : Vec F S256x4096 .bf16) (x1 : Vec F S128x5504 .i32) (x2 : Vec F S8x5504 .f32) (x3 : Vec F S8x5504 .f32) (x4 : Vec F S1x5504 .f32) (xo5 : Vec F S256x5504 .f32) :
    out0_C_5 c i arg2 harg2 arg3 harg3 arg4 harg4 arg5 harg5 arg6 harg6 arg7 harg7 hc0 hc1 x0 x1 x2 x3 x4 xo5 = k0_pay5 (k0_pay4 (loopVal c i arg2 harg2 arg3 harg3 arg4 harg4 arg5 harg5 arg6 harg6 arg7 harg7 x0 x1 x2 x3) xo5) x4 := by
  unfold out0_C_5
  rw [View.read_writes_eq_canon _ _ _ (cover0_C_5 c i arg2 harg2 arg3 harg3 arg4 harg4 arg5 harg5 arg6 harg6 arg7 harg7 hc0 hc1 x0 x1 x2 x3 x4 xo5)]
  unfold kernelRun0_C
  dsimp only
  sl_unfold_words
  rw [View.canon_cons_unit_zero (S := S256x5504) hz2, View.readCov_unit_zero (S := S256x5504) _ hz2]
  simp only [View.readAt_eq_ld, harg7.read_unread, harg6.read_unread, View.ld_unit_zero (S := S256x5504) hz2,
    View.ld_unit_zero (S := S1x5504) hz2]

/-- One trip: the stored value of the accumulator and the four blocks the trip loads, each read off its buffer's
    contents at the trip's offsets. -/
theorem trip_eq (𝒱 : Variants) (c : Dev nD) (bd : Option 𝒱.V) (i : grid0.Coords) (arg2 : Memref sig .tc .vmem S256x4096 .bf16) (harg2 : arg2.IsWhole) (arg3 : Memref sig .tc .vmem S128x5504 .i32) (harg3 : arg3.IsWhole) (arg4 : Memref sig .tc .vmem S8x5504 .f32) (harg4 : arg4.IsWhole) (arg5 : Memref sig .tc .vmem S8x5504 .f32) (harg5 : arg5.IsWhole) (arg6 : Memref sig .tc .vmem S1x5504 .f32) (harg6 : arg6.IsWhole) (arg7 : Memref sig .tc .vmem S256x5504 .f32) (harg7 : arg7.IsWhole)
    (x0 : Vec F S256x4096 .bf16) (x1 : Vec F S128x5504 .i32) (x2 : Vec F S8x5504 .f32) (x3 : Vec F S8x5504 .f32) (k : Fin k0_t1_loop.trips) (acc : FVec F S256x5504 .f32) :
    tripR_k0_t1 𝒱 c bd i arg2 harg2 arg3 harg3 arg4 harg4 arg5 harg5 arg6 harg6 arg7 harg7
        (harg2.unread x0) (harg3.unread x1) (harg4.unread x2) (harg5.unread x3) k acc
      = k0_pay3 acc
          (View.ld x1 (Rect.unit (s := S128x5504) (k0_off1 k) S16x5504.size (Facts₀.k0_off1_inb k)))
          (View.ld x2 (Rect.unit (s := S8x5504) (k0_off2 k) S1x5504.size (Facts₀.k0_off2_inb k)))
          (View.ld x3 (Rect.unit (s := S8x5504) (k0_off2 k) S1x5504.size (Facts₀.k0_off2_inb k)))
          (View.ld x0 (Rect.unit (s := S256x4096) (k0_off3 i k) S256x128.size (Facts₀.k0_off3_inb i k))) := by
  unfold tripR_k0_t1 trip_k0_t1
  dsimp only
  simp only [View.readAt_eq_ld, harg2.read_unread, harg3.read_unread, harg4.read_unread, harg5.read_unread]

end Cert.KernelIdeal.Pieces

end
-- ==== Proof.KernelLoop.lean ====
/-
  The loop's result on the extended reals: the sum over its eight trips of the trip's product.

  Trip i loads packed rows 16 i … 16 i + 15 of the weight block, row i of the zero-point and scale blocks, and columns
  1024 k + 128 i … + 127 of x (k the step of the reduction axis), and adds to the accumulator, at (p, q), the sum over the
  128 rows kk of x[p, 1024 k + 128 i + kk] · ((field kk mod 8 of packed row 16 i + kk / 8, column q) − zero[i, q]) · scale[i, q].
  The accumulator starts at zero, so after j trips it is the sum of the first j trips' products.
-/
import proofs.«402971_j62783831933672_3_alg».proof.Proof.KernelPieces
import proofs.«402971_j62783831933672_3_alg».proof.Proof.KernelPay
import proofs.«402971_j62783831933672_3_alg».proof.Proof.Spec

set_option maxRecDepth 16384

noncomputable section

open scoped BigOperators

namespace Cert.KernelIdeal.Loop

open Cert.KernelIdeal Cert.KernelIdeal.Gen Idealize.ShloMosaic Idealize.ShloMosaic.TcCoe
open Idealize.ShloMosaic.ValueIdx Idealize.SL Idealize.SL.Sem

/-- A sum of the entries below j + 1 is the sum of the entries below j, plus entry j. -/
theorem sum_lt_succ {M : Type*} [AddCommMonoid M] {n : ℕ} (f : Fin n → M) (j : ℕ) (h : j < n) :
    ∑ i : Fin n, (if i.val < j + 1 then f i else 0) = (∑ i : Fin n, if i.val < j then f i else 0) + f ⟨j, h⟩ := by
  have e : ∀ i : Fin n, (if i.val < j + 1 then f i else 0)
      = (if i.val < j then f i else 0) + (if i = ⟨j, h⟩ then f i else 0) := by
    intro i
    by_cases h1 : i.val < j
    · have h2 : i ≠ ⟨j, h⟩ := fun e => by rw [e] at h1; exact absurd h1 (lt_irrefl _)
      rw [if_pos h1, if_pos (Nat.lt_succ_of_lt h1), if_neg h2, add_zero]
    · by_cases h2 : i = ⟨j, h⟩
      · subst h2; rw [if_neg h1, if_pos (Nat.lt_succ_self _), if_pos rfl, zero_add]
      · have h3 : ¬i.val < j + 1 := fun h3 => h2 (Fin.ext (by have := Nat.lt_succ_iff.mp h3; simp only; omega))
        rw [if_neg h1, if_neg h3, if_neg h2, add_zero]
  rw [Finset.sum_congr rfl fun i _ => e i, Finset.sum_add_distrib, Finset.sum_ite_eq' Finset.univ ⟨j, h⟩ f,
    if_pos (Finset.mem_univ _)]

/-- All entries below the length: the whole sum. -/
theorem sum_lt_all {M : Type*} [AddCommMonoid M] {n : ℕ} (f : Fin n → M) :
    ∑ i : Fin n, (if i.val < n then f i else 0) = ∑ i : Fin n, f i :=
  Finset.sum_congr rfl fun i _ => if_pos i.isLt

/-- No entry below zero: nothing. -/
theorem sum_lt_zero {M : Type*} [AddCommMonoid M] {n : ℕ} (f : Fin n → M) :
    ∑ i : Fin n, (if i.val < 0 then f i else 0) = 0 :=
  Finset.sum_eq_zero fun i _ => if_neg (Nat.not_lt_zero _)

theorem trips_eq : k0_t1_loop.trips = 8 := by decide

/-- Trip i's product at (p, q), at step kc of the reduction axis, of the blocks x0 (x), x1 (packed weights), x2 (zero
    points), x3 (scales). -/
def tripProd (kc : Fin 4) (x0 : Vec Ideal S256x4096 .bf16) (x1 : Vec Ideal S128x5504 .i32) (x2 : Vec Ideal S8x5504 .f32) (x3 : Vec Ideal S8x5504 .f32) (i8 : Fin 8) (p : Fin 256) (q : Fin 5504) : EReal :=
  ∑ kk : Fin 128, x0 (ix2 p (⟨1024 * kc.val + 128 * i8.val + kk.val, by omega⟩ : Fin 4096))
    * (((((QLin.nib (x1 (ix2 (⟨16 * i8.val + kk.val / 8, by omega⟩ : Fin 128) q)) (QLin.fld kk.val)).toInt : ℝ) : EReal)
        - x2 (ix2 (⟨i8.val, by omega⟩ : Fin 8) q)) * x3 (ix2 (⟨i8.val, by omega⟩ : Fin 8) q))

/-- One trip adds its product to the accumulator. -/
theorem trip_apply (𝒱 : Variants) (c : Dev nD) (bd : Option 𝒱.V) (i : grid0.Coords) (arg2 : Memref sig .tc .vmem S256x4096 .bf16) (harg2 : arg2.IsWhole) (arg3 : Memref sig .tc .vmem S128x5504 .i32) (harg3 : arg3.IsWhole) (arg4 : Memref sig .tc .vmem S8x5504 .f32) (harg4 : arg4.IsWhole) (arg5 : Memref sig .tc .vmem S8x5504 .f32) (harg5 : arg5.IsWhole) (arg6 : Memref sig .tc .vmem S1x5504 .f32) (harg6 : arg6.IsWhole) (arg7 : Memref sig .tc .vmem S256x5504 .f32) (harg7 : arg7.IsWhole) (x0 : Vec Ideal S256x4096 .bf16) (x1 : Vec Ideal S128x5504 .i32) (x2 : Vec Ideal S8x5504 .f32) (x3 : Vec Ideal S8x5504 .f32) (k : Fin k0_t1_loop.trips) (acc : FVec Ideal S256x5504 .f32) (p : Fin 256) (q : Fin 5504) :
    tripR_k0_t1 (F := Ideal) 𝒱 c bd i arg2 harg2 arg3 harg3 arg4 harg4 arg5 harg5 arg6 harg6 arg7 harg7 (harg2.unread x0) (harg3.unread x1) (harg4.unread x2) (harg5.unread x3) k acc (ix2 p q)
      = acc (ix2 p q) + tripProd (⟨(i 1).val, (i 1).isLt⟩ : Fin 4) x0 x1 x2 x3 (⟨k.val, k.isLt.trans_eq trips_eq⟩ : Fin 8) p q := by
  have hk : k.val < 8 := k.isLt.trans_eq trips_eq
  have hi : (i 1).val < 4 := (i 1).isLt
  rw [Pieces.trip_eq, Pay.pay3_apply]
  unfold tripProd
  refine congrArg (acc (ix2 p q) + ·) (Finset.sum_congr rfl fun kk _ => ?_)
  have hkk : kk.val < 128 := kk.isLt
  have e0 : (Rect.unit (s := S256x4096) (k0_off3 i k) S256x128.size (Facts₀.k0_off3_inb i k)).idx (ix2 p kk)
      = ix2 p (⟨1024 * (i 1).val + 128 * k.val + kk.val, by omega⟩ : Fin 4096) := by
    funext a; apply Fin.ext
    match a with
    | ⟨0, _⟩ => show k0_off3 i k 0 + 1 * p.val = p.val; rw [k0_off3_eq]; show 0 + 1 * p.val = p.val; omega
    | ⟨1, _⟩ => show k0_off3 i k 1 + 1 * kk.val = 1024 * (i 1).val + 128 * k.val + kk.val; rw [k0_off3_eq]; show 1024 * (i 1).val + 128 * k.val + 1 * kk.val = _; omega
  have e1 : (Rect.unit (s := S128x5504) (k0_off1 k) S16x5504.size (Facts₀.k0_off1_inb k)).idx (ix2 (⟨kk.val / 8, by omega⟩ : Fin 16) q)
      = ix2 (⟨16 * k.val + kk.val / 8, by omega⟩ : Fin 128) q := by
    funext a; apply Fin.ext
    match a with
    | ⟨0, _⟩ => show k0_off1 k 0 + 1 * (kk.val / 8) = 16 * k.val + kk.val / 8; rw [k0_off1_eq]; show 16 * k.val + 1 * (kk.val / 8) = _; omega
    | ⟨1, _⟩ => show k0_off1 k 1 + 1 * q.val = q.val; rw [k0_off1_eq]; show 0 + 1 * q.val = q.val; omega
  have e2 : (Rect.unit (s := S8x5504) (k0_off2 k) S1x5504.size (Facts₀.k0_off2_inb k)).idx (ix2 (0 : Fin 1) q)
      = ix2 (⟨k.val, hk⟩ : Fin 8) q := by
    funext a; apply Fin.ext
    match a with
    | ⟨0, _⟩ => show k0_off2 k 0 + 1 * 0 = k.val; rw [k0_off2_eq]; show k.val + 1 * 0 = k.val; omega
    | ⟨1, _⟩ => show k0_off2 k 1 + 1 * q.val = q.val; rw [k0_off2_eq]; show 0 + 1 * q.val = q.val; omega
  dsimp only [View.ld]
  rw [e0, e1, e2]

/-- After j trips the accumulator is the sum of the first j trips' products. -/
theorem st_apply (𝒱 : Variants) (c : Dev nD) (bd : Option 𝒱.V) (i : grid0.Coords) (arg2 : Memref sig .tc .vmem S256x4096 .bf16) (harg2 : arg2.IsWhole) (arg3 : Memref sig .tc .vmem S128x5504 .i32) (harg3 : arg3.IsWhole) (arg4 : Memref sig .tc .vmem S8x5504 .f32) (harg4 : arg4.IsWhole) (arg5 : Memref sig .tc .vmem S8x5504 .f32) (harg5 : arg5.IsWhole) (arg6 : Memref sig .tc .vmem S1x5504 .f32) (harg6 : arg6.IsWhole) (arg7 : Memref sig .tc .vmem S256x5504 .f32) (harg7 : arg7.IsWhole) (x0 : Vec Ideal S256x4096 .bf16) (x1 : Vec Ideal S128x5504 .i32) (x2 : Vec Ideal S8x5504 .f32) (x3 : Vec Ideal S8x5504 .f32) (p : Fin 256) (q : Fin 5504) : ∀ (j : ℕ), j ≤ 8 →
    st_k0_t1 (F := Ideal) 𝒱 c bd i arg2 harg2 arg3 harg3 arg4 harg4 arg5 harg5 arg6 harg6 arg7 harg7 (harg2.unread x0) (harg3.unread x1) (harg4.unread x2) (harg5.unread x3) k0_pay2 j (ix2 p q)
      = ∑ i8 : Fin 8, if i8.val < j then tripProd (⟨(i 1).val, (i 1).isLt⟩ : Fin 4) x0 x1 x2 x3 i8 p q else 0
  | 0, _ => by
    rw [sum_lt_zero]
    exact Pay.pay2_apply _
  | j + 1, hj => by
    have hjt : j < k0_t1_loop.trips := by rw [trips_eq]; omega
    have hs := st_k0_t1_succ (F := Ideal) 𝒱 c bd i arg2 harg2 arg3 harg3 arg4 harg4 arg5 harg5 arg6 harg6 arg7 harg7 (harg2.unread x0) (harg3.unread x1) (harg4.unread x2) (harg5.unread x3) k0_pay2 ⟨j, hjt⟩
    rw [show j + 1 = (⟨j, hjt⟩ : Fin k0_t1_loop.trips).val + 1 from rfl, hs, trip_apply, sum_lt_succ _ j (by omega)]
    exact congrArg (· + _) (st_apply 𝒱 c bd i arg2 harg2 arg3 harg3 arg4 harg4 arg5 harg5 arg6 harg6 arg7 harg7 x0 x1 x2 x3 p q j (by omega))

/-- The loop's result: the sum of the eight trips' products. -/
theorem loopVal_apply (c : Dev nD) (i : grid0.Coords) (arg2 : Memref sig .tc .vmem S256x4096 .bf16) (harg2 : arg2.IsWhole) (arg3 : Memref sig .tc .vmem S128x5504 .i32) (harg3 : arg3.IsWhole) (arg4 : Memref sig .tc .vmem S8x5504 .f32) (harg4 : arg4.IsWhole) (arg5 : Memref sig .tc .vmem S8x5504 .f32) (harg5 : arg5.IsWhole) (arg6 : Memref sig .tc .vmem S1x5504 .f32) (harg6 : arg6.IsWhole) (arg7 : Memref sig .tc .vmem S256x5504 .f32) (harg7 : arg7.IsWhole) (x0 : Vec Ideal S256x4096 .bf16) (x1 : Vec Ideal S128x5504 .i32) (x2 : Vec Ideal S8x5504 .f32) (x3 : Vec Ideal S8x5504 .f32) (p : Fin 256) (q : Fin 5504) :
    Pieces.loopVal (F := Ideal) c i arg2 harg2 arg3 harg3 arg4 harg4 arg5 harg5 arg6 harg6 arg7 harg7 x0 x1 x2 x3 (ix2 p q)
      = ∑ i8 : Fin 8, tripProd (⟨(i 1).val, (i 1).isLt⟩ : Fin 4) x0 x1 x2 x3 i8 p q := by
  rw [← sum_lt_all]
  show st_k0_t1 (F := Ideal) Variants.none c none i arg2 harg2 arg3 harg3 arg4 harg4 arg5 harg5 arg6 harg6 arg7 harg7
    (harg2.unread x0) (harg3.unread x1) (harg4.unread x2) (harg5.unread x3) k0_pay2 k0_t1_loop.trips (ix2 p q) = _
  rw [trips_eq]
  exact st_apply Variants.none c none i arg2 harg2 arg3 harg3 arg4 harg4 arg5 harg5 arg6 harg6 arg7 harg7 x0 x1 x2 x3 p q 8 le_rfl

end Cert.KernelIdeal.Loop

end
-- ==== Proof.KernelValue.lean ====
/-
  The kernel's run with its result array named: the layer's function of the argument arrays.

  The grid has eight points, t = 4 n + k: n the half of the out-features (columns 5504 n … 5504 n + 5503), k the step of
  the reduction axis (in-features 1024 k … 1024 k + 1023). At point t the windows hand the body all of x, packed weight
  rows 128 k … 128 k + 127, zero-point and scale rows 8 k … 8 k + 7 and the bias, each at columns 5504 n + q. So the
  loop's result at point t is the partial product over the in-features of step k, and the output block, carried from
  point to point and written back after the fourth step, holds after point t the sum of the partial products of steps
  0 … k (plus the bias after the last). The two blocks written back cover the result array.
-/
import proofs.«402971_j62783831933672_3_alg».proof.Proof.Gen.KernelIdeal.Value
import proofs.«402971_j62783831933672_3_alg».proof.Proof.Spec
import proofs.«402971_j62783831933672_3_alg».proof.Proof.KernelPay
import proofs.«402971_j62783831933672_3_alg».proof.Proof.KernelHost
import proofs.«402971_j62783831933672_3_alg».proof.Proof.KernelPieces
import proofs.«402971_j62783831933672_3_alg».proof.Proof.KernelLoop

set_option maxRecDepth 16384

noncomputable section

open scoped BigOperators

namespace Cert.KernelIdeal.QValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the region finds, and the windows' blocks -/

abbrev xArr (c : Dev nD) : Vec Ideal S256x4096 .bf16 := V m c main_v0
abbrev qwArr (c : Dev nD) : Vec Ideal S512x11008 .i32 := V m c main_arg1
abbrev zArr (c : Dev nD) : Vec Ideal S32x11008 .f32 := V m c main_v16
abbrev scArr (c : Dev nD) : Vec Ideal S32x11008 .f32 := V m c main_arg3
abbrev bArr (c : Dev nD) : Vec Ideal S1x11008 .f32 := V m c main_v17

abbrev xBlk (c : Dev nD) (t : Fin cfg0.N) : Vec Ideal S256x4096 .bf16 := iblk m c 0 t
abbrev qwBlk (c : Dev nD) (t : Fin cfg0.N) : Vec Ideal S128x5504 .i32 := iblk m c 1 t
abbrev zBlk (c : Dev nD) (t : Fin cfg0.N) : Vec Ideal S8x5504 .f32 := iblk m c 2 t
abbrev scBlk (c : Dev nD) (t : Fin cfg0.N) : Vec Ideal S8x5504 .f32 := iblk m c 3 t
abbrev bBlk (c : Dev nD) (t : Fin cfg0.N) : Vec Ideal S1x5504 .f32 := iblk m c 4 t

/-- The windows' block indices at point t = 4 n + k, decided over the grid: x's block never moves; the packed weights',
    zero points' and scales' blocks are (k, n); the bias's and the output's (0, n); and the body's second coordinate is k. -/
theorem idx_facts : ∀ t : Fin cfg0.N,
    (grid0.coords t 1).val = t.val % 4
    ∧ win0_0.index t (0 : Fin 2) = 0 ∧ win0_0.index t (1 : Fin 2) = 0
    ∧ win0_1.index t (0 : Fin 2) = t.val % 4 ∧ win0_1.index t (1 : Fin 2) = t.val / 4
    ∧ win0_2.index t (0 : Fin 2) = t.val % 4 ∧ win0_2.index t (1 : Fin 2) = t.val / 4
    ∧ win0_3.index t (0 : Fin 2) = t.val % 4 ∧ win0_3.index t (1 : Fin 2) = t.val / 4
    ∧ win0_4.index t (0 : Fin 2) = 0 ∧ win0_4.index t (1 : Fin 2) = t.val / 4
    ∧ win0_5.index t (0 : Fin 2) = 0 ∧ win0_5.index t (1 : Fin 2) = t.val / 4 :=
  (by decide +kernel : ∀ t : Fin grid0.N, _)

theorem lt8 (t : Fin cfg0.N) : t.val < 8 := lt_of_lt_of_eq t.isLt N_0

/-- Column q of the block of half n, as a column of the array. -/
def col (n : ℕ) (hn : n < 8) (q : Fin 5504) : Fin 11008 := ⟨n / 4 * 5504 + q.val, by have := q.isLt; omega⟩

theorem xBlk_apply (c : Dev nD) (t : Fin cfg0.N) (p : Fin 256) (K : Fin 4096) :
    xBlk m c t (ix2 p K) = xArr m c (ix2 p K) := by
  obtain ⟨-, e0, e1, -⟩ := idx_facts t
  unfold xBlk iblk
  rw [View.read_apply]
  show V m c main_v0 _ = V m c main_v0 _
  congr 1
  funext a; apply Fin.ext
  match a with
  | ⟨0, _⟩ => show win0_0.index t (0 : Fin 2) * 256 + 1 * p.val = p.val; rw [e0]; omega
  | ⟨1, _⟩ => show win0_0.index t (1 : Fin 2) * 4096 + 1 * K.val = K.val; rw [e1]; omega

theorem qwBlk_apply (c : Dev nD) (t : Fin cfg0.N) (r : Fin 128) (q : Fin 5504) :
    qwBlk m c t (ix2 r q)
      = qwArr m c (ix2 (⟨t.val % 4 * 128 + r.val, by have := lt8 t; have := r.isLt; omega⟩ : Fin 512) (col t.val (lt8 t) q)) := by
  obtain ⟨-, -, -, e0, e1, -⟩ := idx_facts t
  unfold qwBlk iblk
  rw [View.read_apply]
  show V m c main_arg1 _ = V m c main_arg1 _
  congr 1
  funext a; apply Fin.ext
  match a with
  | ⟨0, _⟩ => show win0_1.index t (0 : Fin 2) * 128 + 1 * r.val = t.val % 4 * 128 + r.val; rw [e0]; omega
  | ⟨1, _⟩ => show win0_1.index t (1 : Fin 2) * 5504 + 1 * q.val = t.val / 4 * 5504 + q.val; rw [e1]; omega

theorem zBlk_apply (c : Dev nD) (t : Fin cfg0.N) (r : Fin 8) (q : Fin 5504) :
    zBlk m c t (ix2 r q)
      = zArr m c (ix2 (⟨t.val % 4 * 8 + r.val, by have := lt8 t; have := r.isLt; omega⟩ : Fin 32) (col t.val (lt8 t) q)) := by
  obtain ⟨-, -, -, -, -, e0, e1, -⟩ := idx_facts t
  unfold zBlk iblk
  rw [View.read_apply]
  show V m c main_v16 _ = V m c main_v16 _
  congr 1
  funext a; apply Fin.ext
  match a with
  | ⟨0, _⟩ => show win0_2.index t (0 : Fin 2) * 8 + 1 * r.val = t.val % 4 * 8 + r.val; rw [e0]; omega
  | ⟨1, _⟩ => show win0_2.index t (1 : Fin 2) * 5504 + 1 * q.val = t.val / 4 * 5504 + q.val; rw [e1]; omega

theorem scBlk_apply (c : Dev nD) (t : Fin cfg0.N) (r : Fin 8) (q : Fin 5504) :
    scBlk m c t (ix2 r q)
      = scArr m c (ix2 (⟨t.val % 4 * 8 + r.val, by have := lt8 t; have := r.isLt; omega⟩ : Fin 32) (col t.val (lt8 t) q)) := by
  obtain ⟨-, -, -, -, -, -, -, e0, e1, -⟩ := idx_facts t
  unfold scBlk iblk
  rw [View.read_apply]
  show V m c main_arg3 _ = V m c main_arg3 _
  congr 1
  funext a; apply Fin.ext
  match a with
  | ⟨0, _⟩ => show win0_3.index t (0 : Fin 2) * 8 + 1 * r.val = t.val % 4 * 8 + r.val; rw [e0]; omega
  | ⟨1, _⟩ => show win0_3.index t (1 : Fin 2) * 5504 + 1 * q.val = t.val / 4 * 5504 + q.val; rw [e1]; omega

theorem bBlk_apply (c : Dev nD) (t : Fin cfg0.N) (q : Fin 5504) :
    bBlk m c t (ix2 (0 : Fin 1) q) = bArr m c (ix2 (0 : Fin 1) (col t.val (lt8 t) q)) := by
  obtain ⟨-, -, -, -, -, -, -, -, -, e0, e1, -⟩ := idx_facts t
  unfold bBlk iblk
  rw [View.read_apply]
  show V m c main_v17 _ = V m c main_v17 _
  congr 1
  funext a; apply Fin.ext
  match a with
  | ⟨0, _⟩ => show win0_4.index t (0 : Fin 2) * 1 + 1 * 0 = 0; rw [e0]
  | ⟨1, _⟩ => show win0_4.index t (1 : Fin 2) * 5504 + 1 * q.val = t.val / 4 * 5504 + q.val; rw [e1]; omega

/-! ## The partial products -/

/-- The summand of in-feature K at result entry (p, O), over the arrays the region finds. -/
def term (c : Dev nD) (K : Fin 4096) (p : Fin 256) (O : Fin 11008) : EReal :=
  xArr m c (ix2 p K)
    * (((((QLin.nib (qwArr m c (ix2 (⟨K.val / 8, by omega⟩ : Fin 512) O)) (QLin.fld K.val)).toInt : ℝ) : EReal)
        - zArr m c (ix2 (QLin.grp K) O)) * scArr m c (ix2 (QLin.grp K) O))

/-- The partial product of step kc of the reduction axis at (p, O): its eight groups of 128 in-features. -/
def tile (c : Dev nD) (p : Fin 256) (O : Fin 11008) (kc : Fin 4) : EReal :=
  ∑ i8 : Fin 8, ∑ kk : Fin 128,
    term m c ⟨kc.val * 1024 + i8.val * 128 + kk.val, by have := kc.isLt; have := i8.isLt; have := kk.isLt; omega⟩ p O

theorem packedRow_lt (K : Fin 4096) : K.val / 8 < 512 := by have := K.isLt; omega

/-- A product of the summand's shape IS the summand of in-feature K, once its indices are K's packed row, group and field. -/
theorem term_of_indices (c : Dev nD) (p : Fin 256) (O : Fin 11008) (A K : Fin 4096) (B : Fin 512) (C : Fin 32) (j : Fin 8)
    (hA : A.val = K.val) (hB : B.val = K.val / 8) (hC : C.val = K.val / 128) (hj : j.val = K.val % 8) :
    xArr m c (ix2 p A)
      * (((((QLin.nib (qwArr m c (ix2 B O)) j).toInt : ℝ) : EReal) - zArr m c (ix2 C O)) * scArr m c (ix2 C O))
      = term m c K p O := by
  have eA : A = K := Fin.ext hA
  have eB : B = (⟨K.val / 8, packedRow_lt K⟩ : Fin 512) := Fin.ext hB
  have eC : C = QLin.grp K := Fin.ext hC
  have ej : j = QLin.fld K.val := Fin.ext hj
  rw [eA, eB, eC, ej]
  rfl

/-- The loop's result at point t is the partial product of the point's step. -/
theorem loop_at (c : Dev nD) (t : Fin cfg0.N) (p : Fin 256) (q : Fin 5504) :
    Pieces.loopVal (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
        (xBlk m c t) (qwBlk m c t) (zBlk m c t) (scBlk m c t) (ix2 p q)
      = tile m c p (col t.val (lt8 t) q) ⟨t.val % 4, Nat.mod_lt _ (by decide)⟩ := by
  obtain ⟨ek, -⟩ := idx_facts t
  have ht := lt8 t
  rw [Loop.loopVal_apply]
  unfold tile Loop.tripProd
  refine Finset.sum_congr rfl fun i8 _ => Finset.sum_congr rfl fun kk _ => ?_
  have hi8 := i8.isLt
  have hkk := kk.isLt
  rw [xBlk_apply, qwBlk_apply, zBlk_apply, scBlk_apply]
  refine term_of_indices m c p _ _ _ _ _ _ ?_ ?_ ?_ ?_
  · show 1024 * (grid0.coords t 1).val + 128 * i8.val + kk.val = t.val % 4 * 1024 + i8.val * 128 + kk.val
    rw [ek]; omega
  · show t.val % 4 * 128 + (16 * i8.val + kk.val / 8) = (t.val % 4 * 1024 + i8.val * 128 + kk.val) / 8
    omega
  · show t.val % 4 * 8 + i8.val = (t.val % 4 * 1024 + i8.val * 128 + kk.val) / 128
    omega
  · show kk.val % 8 = (t.val % 4 * 1024 + i8.val * 128 + kk.val) % 8
    omega

/-! ## What the output block holds after each point -/

/-- After point n = 4 h + k: the partial products of steps 0 … k of half h, and after the last step the bias. -/
def inv (c : Dev nD) (n : ℕ) (hn : n < 8) : Vec Ideal S256x5504 .f32 := fun y =>
  (∑ k' : Fin 4, if k'.val < n % 4 + 1 then tile m c (y 0) (col n hn (y 1)) k' else 0)
    + (if n % 4 = 3 then bArr m c (ix2 (0 : Fin 1) (col n hn (y 1))) else 0)

theorem inv_ix2 (c : Dev nD) (n : ℕ) (hn : n < 8) (p : Fin 256) (q : Fin 5504) :
    inv m c n hn (ix2 p q)
      = (∑ k' : Fin 4, if k'.val < n % 4 + 1 then tile m c p (col n hn q) k' else 0)
        + (if n % 4 = 3 then bArr m c (ix2 (0 : Fin 1) (col n hn q)) else 0) := rfl

/-- The partial products of the steps below the point's own are what the steps before left; at a first step, nothing. -/
theorem below_first (c : Dev nD) (p : Fin 256) (O : Fin 11008) (n : ℕ) (h0 : n % 4 = 0) :
    (∑ k' : Fin 4, if k'.val < n % 4 then tile m c p O k' else 0) = 0 :=
  Finset.sum_eq_zero fun k' _ => if_neg (by omega)

/-- A first step of the axis: the block is zeroed, then the step's partial product is added. -/
theorem step_A (c : Dev nD) (t : Fin cfg0.N) (h0 : t.val % 4 = 0) (h1 : ¬t.val % 4 = 3) :
    outsAt0 m c t.val t.isLt = inv m c t.val (lt8 t) := by
  funext y
  obtain ⟨p, q, rfl⟩ : ∃ (p : Fin 256) (q : Fin 5504), y = ix2 p q := ⟨y 0, y 1, eq_ix2 y⟩
  rw [outsAt0_A m c t h0 h1, Pieces.out_A, Pay.pay4_apply, Pay.pay1_apply, loop_at, inv_ix2, if_neg h1, add_zero,
    Loop.sum_lt_succ (fun k' => tile m c p (col t.val (lt8 t) q) k') (t.val % 4) (Nat.mod_lt _ (by decide)),
    below_first m c p _ t.val h0]

/-- A middle step: the step's partial product is added to what the step before left. -/
theorem step_B (c : Dev nD) (t : Fin cfg0.N) (h0 : ¬t.val % 4 = 0) (h1 : ¬t.val % 4 = 3)
    (ih : ∀ hlt, outsAt0 m c (t.val - 1) hlt = inv m c (t.val - 1) (by have := lt8 t; omega)) :
    outsAt0 m c t.val t.isLt = inv m c t.val (lt8 t) := by
  have ht := lt8 t
  funext y
  obtain ⟨p, q, rfl⟩ : ∃ (p : Fin 256) (q : Fin 5504), y = ix2 p q := ⟨y 0, y 1, eq_ix2 y⟩
  have ec : col (t.val - 1) (by omega) q = col t.val ht q :=
    Fin.ext (by show (t.val - 1) / 4 * 5504 + q.val = t.val / 4 * 5504 + q.val; omega)
  have en : (t.val - 1) % 4 + 1 = t.val % 4 := by omega
  rw [outsAt0_B m c t h0 h1, Pieces.out_B, Pay.pay4_apply, loop_at, ih, inv_ix2, inv_ix2, if_neg h1,
    if_neg (show ¬(t.val - 1) % 4 = 3 by omega), add_zero, add_zero,
    Loop.sum_lt_succ (fun k' => tile m c p (col t.val ht q) k') (t.val % 4) (Nat.mod_lt _ (by decide)), ec, en]

/-- A last step: the step's partial product, then the bias row, are added to what the step before left. -/
theorem step_C (c : Dev nD) (t : Fin cfg0.N) (h0 : ¬t.val % 4 = 0) (h1 : t.val % 4 = 3)
    (ih : ∀ hlt, outsAt0 m c (t.val - 1) hlt = inv m c (t.val - 1) (by have := lt8 t; omega)) :
    outsAt0 m c t.val t.isLt = inv m c t.val (lt8 t) := by
  have ht := lt8 t
  funext y
  obtain ⟨p, q, rfl⟩ : ∃ (p : Fin 256) (q : Fin 5504), y = ix2 p q := ⟨y 0, y 1, eq_ix2 y⟩
  have ec : col (t.val - 1) (by omega) q = col t.val ht q :=
    Fin.ext (by show (t.val - 1) / 4 * 5504 + q.val = t.val / 4 * 5504 + q.val; omega)
  have en : (t.val - 1) % 4 + 1 = t.val % 4 := by omega
  rw [outsAt0_C m c t h0 h1, Pieces.out_C, Pay.pay5_apply, Pay.pay4_apply, loop_at, ih, inv_ix2, inv_ix2, if_pos h1,
    if_neg (show ¬(t.val - 1) % 4 = 3 by omega), add_zero,
    Loop.sum_lt_succ (fun k' => tile m c p (col t.val ht q) k') (t.val % 4) (Nat.mod_lt _ (by decide)), ec, en]
  exact congrArg (_ + ·) (bBlk_apply m c t q)

/-- After every point the output block holds the partial products so far: by induction on the point. -/
theorem outsAt_eq (c : Dev nD) : ∀ (n : ℕ) (h : n < cfg0.N), outsAt0 m c n h = inv m c n (lt_of_lt_of_eq h N_0)
  | 0, h => step_A m c ⟨0, h⟩ rfl (show ¬(0 % 4 = 3) by decide)
  | n + 1, h => by
    have ih : ∀ hlt, outsAt0 m c n hlt = inv m c n (by have := lt_of_lt_of_eq h N_0; omega) := fun hlt => outsAt_eq c n hlt
    by_cases h0 : (n + 1) % 4 = 0
    · exact step_A m c ⟨n + 1, h⟩ h0 (show ¬(n + 1) % 4 = 3 by omega)
    · by_cases h1 : (n + 1) % 4 = 3
      · exact step_C m c ⟨n + 1, h⟩ h0 h1 ih
      · exact step_B m c ⟨n + 1, h⟩ h0 h1 ih

/-! ## The result array -/

/-- The result array over the arrays the region finds: all four partial products, plus the bias. -/
def res (c : Dev nD) : Vec Ideal S256x11008 .f32 := fun y =>
  (∑ k' : Fin 4, tile m c (y 0) (y 1) k') + bArr m c (ix2 (0 : Fin 1) (y 1))

/-- What a writing-back point writes is its block of the result. -/
theorem flushed_eq (c : Dev nD) (t : Fin cfg0.N) (hf : (cfg0.win 5).flush t = true) :
    (dats m 0 c).flushed 5 t = ((cfg0.win 5).blk t).view.read (Elt Ideal) (res m c) := by
  have h3 : t.val % 4 = 3 := (flush0_5 t).mp hf
  have ht := lt8 t
  obtain ⟨-, -, -, -, -, -, -, -, -, -, -, e0, e1⟩ := idx_facts t
  rw [Value.flushed5, outsAt_eq]
  funext j
  obtain ⟨p, q, rfl⟩ : ∃ (p : Fin 256) (q : Fin 5504), j = ix2 p q := ⟨j 0, j 1, eq_ix2 j⟩
  have hemb : ((cfg0.win 5).blk t).view.emb (ix2 p q) = ix2 p (col t.val ht q) := by
    funext a; apply Fin.ext
    match a with
    | ⟨0, _⟩ => show win0_5.index t (0 : Fin 2) * 256 + 1 * p.val = p.val; rw [e0]; omega
    | ⟨1, _⟩ => show win0_5.index t (1 : Fin 2) * 5504 + 1 * q.val = t.val / 4 * 5504 + q.val; rw [e1]; omega
  show inv m c t.val _ (ix2 p q) = res m c (((cfg0.win 5).blk t).view.emb (ix2 p q))
  rw [hemb, inv_ix2, if_pos h3]
  show _ = (∑ k' : Fin 4, tile m c p (col t.val ht q) k') + bArr m c (ix2 (0 : Fin 1) (col t.val ht q))
  exact congrArg (· + _) (Finset.sum_congr rfl fun k' _ => if_pos (by have := k'.isLt; omega))

/-- An index of the array is in point t's block iff each coordinate is in the block's range on its axis. -/
theorem mem_blk (t : Fin cfg0.N) (i : S256x11008.Idx) :
    i ∈ ((cfg0.win 5).blk t).view.set ↔ ∀ a : Fin 2, win0_5.index t a * S256x5504.size a ≤ (i a).val ∧ (i a).val < win0_5.index t a * S256x5504.size a + S256x5504.size a := by
  show i ∈ ((View.whole main_v18).slice (win0_5.rect t)).set ↔ _
  rw [View.set_slice_whole, Rect.mem_set_unit]
  exact Iff.rfl

/-- The two blocks written back, after the fourth step of each half, cover the array. -/
theorem final (c : Dev nD) : (dats m 0 c).arrAt 5 cfg0.N = res m c :=
  (dats m 0 c).arrAt_eq_of_cover 5 (res m c) (flushed_eq m c) fun i => by
    have hi0 : (i 0).val < 256 := (i 0).isLt
    have hi1 : (i 1).val < 11008 := (i 1).isLt
    have hN : cfg0.N = 8 := N_0
    have hb : 4 * ((i 1).val / 5504) + 3 < cfg0.N := by rw [hN]; omega
    obtain ⟨-, -, -, -, -, -, -, -, -, -, -, e0, e1⟩ := idx_facts ⟨4 * ((i 1).val / 5504) + 3, hb⟩
    refine ⟨⟨4 * ((i 1).val / 5504) + 3, hb⟩, (flush0_5 _).mpr (by show (4 * ((i 1).val / 5504) + 3) % 4 = 3; omega), ?_⟩
    rw [mem_blk]
    intro a
    match a with
    | ⟨0, _⟩ =>
      show win0_5.index ⟨4 * ((i 1).val / 5504) + 3, hb⟩ (0 : Fin 2) * 256 ≤ (i 0).val ∧ (i 0).val < win0_5.index ⟨4 * ((i 1).val / 5504) + 3, hb⟩ (0 : Fin 2) * 256 + 256
      rw [e0]; omega
    | ⟨1, _⟩ =>
      show win0_5.index ⟨4 * ((i 1).val / 5504) + 3, hb⟩ (1 : Fin 2) * 5504 ≤ (i 1).val ∧ (i 1).val < win0_5.index ⟨4 * ((i 1).val / 5504) + 3, hb⟩ (1 : Fin 2) * 5504 + 5504
      rw [e1]
      show (4 * ((i 1).val / 5504) + 3) / 4 * 5504 ≤ (i 1).val ∧ (i 1).val < (4 * ((i 1).val / 5504) + 3) / 4 * 5504 + 5504
      omega

/-! ## The result is the layer's function of the arguments -/

/-- The argument x, as launched, as an array of extended reals. -/
abbrev xArg (c : Dev nD) : S256x4096.Idx → EReal := m ((c : Thread nD τ).loc main_arg0)

/-- The summand over the arrays the region finds is the layer's summand over the arguments: x is found as launched,
    the zero points unpacked and converted, the packed weights and the scales as launched. -/
theorem term_eq (c : Dev nD) (K : Fin 4096) (p : Fin 256) (O : Fin 11008) :
    term m c K p O = xArg m c (ix2 p K)
      * QLin.wdeq (m ((c : Thread nD τ).loc main_arg1)) (m ((c : Thread nD τ).loc main_arg2)) (m ((c : Thread nD τ).loc main_arg3)) K O := by
  unfold term QLin.wdeq QLin.wq xArr qwArr zArr scArr
  rw [HostSide.V_main_v0_apply, HostSide.V_main_v16_apply, V_main_arg1, V_main_arg3]

theorem res_eq_G (c : Dev nD) :
    res m c = QLin.G (m ((c : Thread nD τ).loc main_arg0)) (m ((c : Thread nD τ).loc main_arg1))
      (m ((c : Thread nD τ).loc main_arg2)) (m ((c : Thread nD τ).loc main_arg3)) (m ((c : Thread nD τ).loc main_arg4)) := by
  funext y
  obtain ⟨p, O, rfl⟩ : ∃ (p : Fin 256) (O : Fin 11008), y = ix2 p O := ⟨y 0, y 1, eq_ix2 y⟩
  rw [QLin.G_ix2, QLin.sum_tiles]
  show (∑ k' : Fin 4, tile m c p O k') + V m c main_v17 (ix2 (0 : Fin 1) O) = _
  rw [HostSide.V_main_v17_apply]
  refine congrArg (· + _) (Finset.sum_congr rfl fun k' _ => ?_)
  unfold tile
  exact Finset.sum_congr rfl fun i8 _ => Finset.sum_congr rfl fun kk _ => term_eq m c _ p O

/-- The kernel's run: its result array the layer's function of the argument arrays, the arguments unchanged. -/
theorem run : θ_run defs (onTc (τ := τ) (main (F := Ideal))) ⟨m, fun _ => 0, ρ⟩ fun r => ∀ c : Dev nD,
      r.2.mem ((c : Thread nD τ).loc main_v18)
        = QLin.G (m ((c : Thread nD τ).loc main_arg0)) (m ((c : Thread nD τ).loc main_arg1))
            (m ((c : Thread nD τ).loc main_arg2)) (m ((c : Thread nD τ).loc main_arg3))
            (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (res_eq_G m c)), (h c).2⟩)
    (Value.run_blocks m ρ)

end Cert.KernelIdeal.QValue

end
-- ==== Proof.RefTerm.lean ====
/-
  What the reference program computes, as one pure term of its five argument arrays, stage by stage in the order
  of its operations: the shift amounts 0, 4, …, 28; the unpacked weights (packed rows broadcast over the eight
  fields, shifted, masked, the field axis merged into the rows); the unpacked zero points (the same along the
  columns, plus one); the group of each in-feature (the in-feature number floor-divided by 128, as jax spells
  floor division: truncating quotient, less one where the signs differ and the remainder is not zero); the group
  taken modulo the table's 32 rows where negative, as an index column; the zero points and the scales gathered row by
  row; (w − z) converted and scaled; the product with x; the bias broadcast and added.
-/
import proofs.«402971_j62783831933672_3_alg».proof.ReferenceIdeal
import proofs.«402971_j62783831933672_3_alg».proof.Proof.Gen.ReferenceIdeal

noncomputable section

namespace Cert.ReferenceIdeal.RefTerm

open Cert.ReferenceIdeal Cert.ReferenceIdeal.Facts₀ Idealize.ShloMosaic

variable {F : FTy → Type} [FloatOps F]

/-- The shift amounts: zero plus four times the lane number. -/
def shifts : IVec S8 32 :=
  addi (broadcastInDim S8 ![] bcast_S_S8 (constantI S_ 32 0#32))
    (muli (broadcastInDim S8 ![] bcast_S_S8 (constantI S_ 32 4#32)) (iotaInDim S8 32 0))

/-- The unpacked weights, [4096, 11008] integers. -/
def wInt (qw : IVec S512x11008 32) : IVec S4096x11008 32 :=
  shapeCast S4096x11008
    (andi
      (Host.shrsi
        (broadcastInDim S512x8x11008 ![0, 1, 2] bcast_S512x1x11008_S512x8x11008_0_1_2
          (broadcastInDim S512x1x11008 ![0, 2] bcast_S512x11008_S512x1x11008_0_2 qw))
        (broadcastInDim S512x8x11008 ![0, 1, 2] bcast_S1x8x1_S512x8x11008_0_1_2
          (broadcastInDim S1x8x1 ![1] bcast_S8_S1x8x1_1 shifts)))
      (broadcastInDim S512x8x11008 ![] bcast_S_S512x8x11008 (constantI S_ 32 15#32)))
    shapeCasts_S512x8x11008_S4096x11008

/-- The unpacked zero points, [32, 11008] integers. -/
def zInt (qz : IVec S32x1376 32) : IVec S32x11008 32 :=
  shapeCast S32x11008
    (addi
      (andi
        (Host.shrsi
          (broadcastInDim S32x1376x8 ![0, 1, 2] bcast_S32x1376x1_S32x1376x8_0_1_2
            (broadcastInDim S32x1376x1 ![0, 1] bcast_S32x1376_S32x1376x1_0_1 qz))
          (broadcastInDim S32x1376x8 ![0, 1, 2] bcast_S1x1x8_S32x1376x8_0_1_2
            (broadcastInDim S1x1x8 ![2] bcast_S8_S1x1x8_2 shifts)))
        (broadcastInDim S32x1376x8 ![] bcast_S_S32x1376x8 (constantI S_ 32 15#32)))
      (broadcastInDim S32x1376x8 ![] bcast_S_S32x1376x8 (constantI S_ 32 1#32)))
    shapeCasts_S32x1376x8_S32x11008

/-- jax's floor division of a [4096] integer vector by an integer scalar. -/
def floorDiv (a : IVec S4096 32) (d : IVec S_ 32) : IVec S4096 32 :=
  let q : IVec S4096 32 := Host.divsi a (broadcastInDim S4096 ![] bcast_S_S4096 d)
  select
    (andi (cmpi .ne (signi a) (broadcastInDim S4096 ![] bcast_S_S4096 (signi d)))
      (cmpi .ne (Host.remsi a (broadcastInDim S4096 ![] bcast_S_S4096 d))
        (broadcastInDim S4096 ![] bcast_S_S4096 (constantI S_ 32 0#32))))
    (subi q (broadcastInDim S4096 ![] bcast_S_S4096 (constantI S_ 32 1#32)))
    q

/-- The group of each in-feature. -/
def grpInt : IVec S4096 32 := floorDiv (iotaInDim S4096 32 0) (constantI S_ 32 128#32)

/-- The group as a row number of a 32-row table (a negative one counted from the end), as a column of start indices. -/
def grpCol : IVec S4096x1 32 :=
  broadcastInDim S4096x1 ![0] bcast_S4096_S4096x1_0
    (select (cmpi .slt grpInt (broadcastInDim S4096 ![] bcast_S_S4096 (constantI S_ 32 0#32)))
      (addi grpInt (broadcastInDim S4096 ![] bcast_S_S4096 (constantI S_ 32 32#32)))
      grpInt)

/-- The dequantised weights, [4096, 11008] floats. -/
def wDeq (qw : IVec S512x11008 32) (qz : IVec S32x1376 32) (sc : FVec F S32x11008 .f32) : FVec F S4096x11008 .f32 :=
  mulf
    (sitofp .f32 (subi (wInt qw)
      (Host.gather gather_S32x11008_S4096x1_S4096x11008_1_0_n_n_0_1_111008 (zInt qz) grpCol)))
    (Host.gather gather_S32x11008_S4096x1_S4096x11008_1_0_n_n_0_1_111008 sc grpCol)

/-- THE REFERENCE'S RESULT: x · W + bias. -/
def out (x : FVec F S256x4096 .f32) (qw : IVec S512x11008 32) (qz : IVec S32x1376 32) (sc : FVec F S32x11008 .f32)
    (b : FVec F S11008 .f32) : FVec F S256x11008 .f32 :=
  addf (Host.dotGeneral dot_S256x4096_S4096x11008_S256x11008_1_0_0_1_n_n none x (wDeq qw qz sc))
    (broadcastInDim S256x11008 ![0, 1] bcast_S1x11008_S256x11008_0_1
      (broadcastInDim S1x11008 ![1] bcast_S11008_S1x11008_1 b))

end Cert.ReferenceIdeal.RefTerm

end
-- ==== Proof.RefRun.lean ====
/-
  The reference program's run read back: every weakly fair execution of it terminates, its result buffer holding the
  composed term of the argument arrays (RefTerm), the arguments unchanged.

  The program is a straight line: thirty operations, then the floor division of the in-feature numbers by 128 (a
  function of sixteen operations whose last line calls the selection, one more), then twenty-five. With the two
  calls replaced by their bodies over the calls' own buffers it is one list of seventy-two operations, each
  writing one buffer that no other writes and that is no argument. The contents after the list are the fold of the
  operations' results over the launch contents; read at the result buffer the fold is the operations' composition,
  which is RefTerm.out with its stages unfolded; read at an argument it is the argument.
-/
import proofs.«402971_j62783831933672_3_alg».proof.ReferenceIdeal
import proofs.«402971_j62783831933672_3_alg».proof.Proof.Gen.ReferenceIdeal
import proofs.«402971_j62783831933672_3_alg».proof.Proof.RefTerm
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- @main's operations in order, the calls unfolded. The shift amounts 0, 4, …, 28 (seven); the weights' fields (nine:
    the packed rows and the amounts broadcast to [512, 8, 11008], shifted, masked with 15, the field axis merged
    into the rows); the zero points' fields (twelve: the same along the columns, plus one); the in-feature numbers
    and the divisor 128 (two). Then the floor division's sixteen over the call's buffers — the divisor converted to
    its own type and broadcast, the truncating quotient, the two signs and their comparison, the remainder and its
    comparison with zero, the conjunction, the quotient less one — and the selection's one over the nested call's
    buffer, which is the call's result. Then the group as a row number of the 32-row table and as an index column
    (eight), the zero points gathered, the difference and its conversion (three); the index column again (eight),
    the scales gathered, the product, the contraction with x, the bias broadcast twice, the sum (six). -/
abbrev ops : List (HloOp τ sig (Elt F)) :=
  [ nullary main_v0 (iotaInDim S8 32 0),
    nullary main_c (constantI S_ 32 4#32),
    unary main_c main_v1 (broadcastInDim S8 ![] bcast_S_S8),
    binary main_v1 main_v0 main_v2 muli,
    nullary main_c_0 (constantI S_ 32 0#32),
    unary main_c_0 main_v3 (broadcastInDim S8 ![] bcast_S_S8),
    binary main_v3 main_v2 main_v4 addi,
    unary main_arg1 main_v5 (broadcastInDim S512x1x11008 ![0, 2] bcast_S512x11008_S512x1x11008_0_2),
    unary main_v4 main_v6 (broadcastInDim S1x8x1 ![1] bcast_S8_S1x8x1_1),
    unary main_v5 main_v7 (broadcastInDim S512x8x11008 ![0, 1, 2] bcast_S512x1x11008_S512x8x11008_0_1_2),
    unary main_v6 main_v8 (broadcastInDim S512x8x11008 ![0, 1, 2] bcast_S1x8x1_S512x8x11008_0_1_2),
    binary main_v7 main_v8 main_v9 Host.shrsi,
    nullary main_c_1 (constantI S_ 32 15#32),
    unary main_c_1 main_v10 (broadcastInDim S512x8x11008 ![] bcast_S_S512x8x11008),
    binary main_v9 main_v10 main_v11 andi,
    reshape main_v11 main_v12 rfl shapeCasts_S512x8x11008_S4096x11008,
    unary main_arg2 main_v13 (broadcastInDim S32x1376x1 ![0, 1] bcast_S32x1376_S32x1376x1_0_1),
    unary main_v4 main_v14 (broadcastInDim S1x1x8 ![2] bcast_S8_S1x1x8_2),
    unary main_v13 main_v15 (broadcastInDim S32x1376x8 ![0, 1, 2] bcast_S32x1376x1_S32x1376x8_0_1_2),
    unary main_v14 main_v16 (broadcastInDim S32x1376x8 ![0, 1, 2] bcast_S1x1x8_S32x1376x8_0_1_2),
    binary main_v15 main_v16 main_v17 Host.shrsi,
    nullary main_c_2 (constantI S_ 32 15#32),
    unary main_c_2 main_v18 (broadcastInDim S32x1376x8 ![] bcast_S_S32x1376x8),
    binary main_v17 main_v18 main_v19 andi,
    nullary main_c_3 (constantI S_ 32 1#32),
    unary main_c_3 main_v20 (broadcastInDim S32x1376x8 ![] bcast_S_S32x1376x8),
    binary main_v19 main_v20 main_v21 addi,
    reshape main_v21 main_v22 rfl shapeCasts_S32x1376x8_S32x11008,
    nullary main_v23 (iotaInDim S4096 32 0),
    nullary main_c_4 (constantI S_ 32 128#32),
    TRef.unary (.of main_c_4) main_call0.v0 id,
    TRef.unary main_call0.v0 main_call0.v1 (broadcastInDim S4096 ![] bcast_S_S4096),
    TRef.binary (.of main_v23) main_call0.v1 main_call0.v2 Host.divsi,
    TRef.unary (.of main_v23) main_call0.v3 signi,
    TRef.unary main_call0.v0 main_call0.v4 signi,
    TRef.unary main_call0.v4 main_call0.v5 (broadcastInDim S4096 ![] bcast_S_S4096),
    TRef.binary main_call0.v3 main_call0.v5 main_call0.v6 (cmpi .ne),
    TRef.unary main_call0.v0 main_call0.v7 (broadcastInDim S4096 ![] bcast_S_S4096),
    TRef.binary (.of main_v23) main_call0.v7 main_call0.v8 Host.remsi,
    TRef.nullary main_call0.c (constantI S_ 32 0#32),
    TRef.unary main_call0.c main_call0.v9 (broadcastInDim S4096 ![] bcast_S_S4096),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S4096 ![] bcast_S_S4096),
    TRef.binary main_call0.v2 main_call0.v12 main_call0.v13 subi,
    TRef.ternary main_call0.v11 main_call0.v13 main_call0.v2 main_call0.call0.v0 select,
    nullary main_c_5 (constantI S_ 32 0#32),
    unary main_c_5 main_v25 (broadcastInDim S4096 ![] bcast_S_S4096),
    binary main_v24 main_v25 main_v26 (cmpi .slt),
    nullary main_c_6 (constantI S_ 32 32#32),
    unary main_c_6 main_v27 (broadcastInDim S4096 ![] bcast_S_S4096),
    binary main_v24 main_v27 main_v28 addi,
    ternary main_v26 main_v28 main_v24 main_v29 select,
    unary main_v29 main_v30 (broadcastInDim S4096x1 ![0] bcast_S4096_S4096x1_0),
    binary main_v22 main_v30 main_v31 (fun x i => Host.gather gather_S32x11008_S4096x1_S4096x11008_1_0_n_n_0_1_111008 x i),
    binary main_v12 main_v31 main_v32 subi,
    unary main_v32 main_v33 (sitofp .f32),
    nullary main_c_7 (constantI S_ 32 0#32),
    unary main_c_7 main_v34 (broadcastInDim S4096 ![] bcast_S_S4096),
    binary main_v24 main_v34 main_v35 (cmpi .slt),
    nullary main_c_8 (constantI S_ 32 32#32),
    unary main_c_8 main_v36 (broadcastInDim S4096 ![] bcast_S_S4096),
    binary main_v24 main_v36 main_v37 addi,
    ternary main_v35 main_v37 main_v24 main_v38 select,
    unary main_v38 main_v39 (broadcastInDim S4096x1 ![0] bcast_S4096_S4096x1_0),
    binary main_arg3 main_v39 main_v40 (fun x i => Host.gather gather_S32x11008_S4096x1_S4096x11008_1_0_n_n_0_1_111008 x i),
    binary main_v33 main_v40 main_v41 mulf,
    binary main_arg0 main_v41 main_v42 (fun l r => Host.dotGeneral dot_S256x4096_S4096x11008_S256x11008_1_0_0_1_n_n none l r),
    unary main_arg4 main_v43 (broadcastInDim S1x11008 ![1] bcast_S11008_S1x11008_1),
    unary main_v43 main_v44 (broadcastInDim S256x11008 ![0, 1] bcast_S1x11008_S256x11008_0_1),
    binary main_v42 main_v44 main_v45 addf ]

set_option maxRecDepth 4096 in
/-- @main is that straight line: with the two functions' bodies in place of their calls, both sides are the same
    chain of steps (sequencing a chain after a chain is the longer chain, by computation). -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub ..,
    unary_bufs_sub .., unary_bufs_sub .., unary_bufs_sub .., unary_bufs_sub .., binary_bufs_sub .., nullary_bufs_sub ..,
    unary_bufs_sub .., binary_bufs_sub .., reshape_bufs_sub ..,
    unary_bufs_sub .., unary_bufs_sub .., unary_bufs_sub .., unary_bufs_sub .., binary_bufs_sub .., nullary_bufs_sub ..,
    unary_bufs_sub .., binary_bufs_sub .., nullary_bufs_sub .., unary_bufs_sub .., binary_bufs_sub .., reshape_bufs_sub ..,
    nullary_bufs_sub .., nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub ..,
    ternary_bufs_sub ..,
    nullary_bufs_sub .., unary_bufs_sub .., binary_bufs_sub .., nullary_bufs_sub .., unary_bufs_sub .., binary_bufs_sub ..,
    ternary_bufs_sub .., unary_bufs_sub ..,
    binary_bufs_sub .., binary_bufs_sub .., unary_bufs_sub ..,
    nullary_bufs_sub .., unary_bufs_sub .., binary_bufs_sub .., nullary_bufs_sub .., unary_bufs_sub .., binary_bufs_sub ..,
    ternary_bufs_sub .., unary_bufs_sub ..,
    binary_bufs_sub .., binary_bufs_sub .., binary_bufs_sub .., unary_bufs_sub .., unary_bufs_sub .., binary_bufs_sub ..⟩

attribute [local irreducible] Host.gather in
set_option maxRecDepth 8192 in
/-- The fold at the result buffer is the composed term. Unrolled, the fold reads each operation's result at the
    buffer it writes as its function of the operands' contents, and at any other buffer as what was there; what is
    left is the operations' composition over the argument arrays, the typed references' transports being the
    identity at these literal references and the floor division's quotient written out where RefTerm names it. The
    gather is kept folded meanwhile: the equation never looks inside it. -/
theorem out_eq (V : Valuation τ sig (Elt F)) :
    after ops V (main_v45 : DevRef τ sig)
      = RefTerm.out (V (main_arg0 : DevRef τ sig)) (V (main_arg1 : DevRef τ sig)) (V (main_arg2 : DevRef τ sig))
          (V (main_arg3 : DevRef τ sig)) (V (main_arg4 : DevRef τ sig)) := by
  after_results_simp
  rfl

/-! No operation writes an argument: the fold read there is what was there. -/

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

/-- On the device, for any float values, from any memory with zero counters: every weakly fair execution of @main
    terminates with the result buffer at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v45)
        = RefTerm.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c main_v45).trans (out_eq _), (h c main_arg0).trans (arg0_eq _),
      (h c main_arg1).trans (arg1_eq _), (h c main_arg2).trans (arg2_eq _), (h c main_arg3).trans (arg3_eq _),
      (h c main_arg4).trans (arg4_eq _)⟩)
    (run_seq scopedRefs_eq scopedSems_eq defs main (fun _ => ops) main_eq (fun _ => ops_sub) m ρ)

end Cert.ReferenceIdeal.RefRun

end
-- ==== Proof.LibScatterGather.lean ====
/-
  Reading an accumulating scatter and a row gather at one element, at the ideal instance.

  `scatterAdd_vec_apply`: a vector of `M` updates added into a vector of length `N` at the positions a column of `M` words
  names: element `i` of the result is the operand's element plus the sum of the updates whose word, read as a signed
  integer, is `i` (a word outside `[0, N)` contributes nowhere).
  `scatterAdd_rows_apply`: the same for `M` rows of width `C` added into an `N × C` array: row `i`, column `j` collects
  column `j` of the update rows whose word is `i`.
  `gather_rows_apply`: row `e` of a gather of `M` rows out of an `N × C` array is the array's row at word `e`, read signed
  and clamped into `[0, N - 1]`.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.LibScatterGather

open Idealize.ShloMosaic Idealize.ShloMosaic.ValueIdx

/-! ## A vector of updates added into a vector -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The vector scatter's dimension numbers: no window axes, the operand's one axis inserted and scatter-indexed, the
    index vector on axis 1 of the column of words. -/
abbrev vecDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update `j` lands on the operand's axis at its word read signed: the start is the word at row `j` of the column, the
    window coordinate is zero (the axis is inserted). -/
theorem vec_landing {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (a : Fin 1) :
    (vecDims N M wf).start j idx a + ((vecDims N M wf).window j a : ℤ) = (idx (ix2 (j 0) (0 : Fin 1))).toInt := by
  obtain rfl : a = 0 := Subsingleton.elim _ _
  unfold ScatterDims.start ScatterDims.window
  rw [dif_pos (show (0 : Fin 1) ∈ (vecDims N M wf).scatterDimsToOperandDims from List.mem_singleton.mpr rfl),
    dif_neg (show (0 : Fin 1) ∉ (vecDims N M wf).sKept by
      show (0 : Fin 1) ∉ (List.finRange 1).filter (· ∉ [0]); decide)]
  have hsi : (vecDims N M wf).siIdx j ⟨List.idxOf (0 : Fin 1) (vecDims N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  simp

/-- The update at `j` lands on element `i` exactly when its word, read signed, is `i`. -/
theorem vec_resultIdx {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (i : Fin N) :
    (vecDims N M wf).resultIdx? j idx = some (ix1 i) ↔ (idx (ix2 (j 0) (0 : Fin 1))).toInt = (i.val : ℤ) := by
  have hl := vec_landing wf idx j
  unfold ScatterDims.resultIdx?
  constructor
  · intro h
    split at h
    · next hc =>
      have h0 := congrFun (Option.some.inj h) 0
      have h1 := congrArg Fin.val h0
      simp only at h1
      have := hc 0
      rw [← hl 0]
      change ((vecDims N M wf).start j idx 0 + ((vecDims N M wf).window j 0 : ℤ)).toNat = i.val at h1
      omega
    · exact absurd h (by simp)
  · intro h
    have hc : ∀ a, 0 ≤ (vecDims N M wf).start j idx a + ((vecDims N M wf).window j a : ℤ) ∧
        (vecDims N M wf).start j idx a + ((vecDims N M wf).window j a : ℤ) < ((⟨1, ![N]⟩ : Shape).size a : ℤ) := by
      intro a
      obtain rfl : a = 0 := Subsingleton.elim _ _
      rw [hl 0, h]
      have := i.isLt
      constructor
      · omega
      · show (i.val : ℤ) < (N : ℤ); omega
    rw [dif_pos hc]
    congr 1
    funext a
    obtain rfl : a = 0 := Subsingleton.elim _ _
    refine Fin.ext ?_
    show ((vecDims N M wf).start j idx 0 + ((vecDims N M wf).window j 0 : ℤ)).toNat = i.val
    rw [hl 0, h]; simp

/-- THE VECTOR SCATTER READ AT `i`: the operand's element plus the sum, over the `M` updates, of those whose word read
    signed is `i`. The filtered sum over update indices becomes the sum over `Fin M` with an `if` (`Finset.sum_filter`,
    then the update index set re-indexed by its one coordinate). -/
theorem scatterAdd_vec_apply {N M w : Nat} {φ : FTy} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![M, 1]⟩ w) (upd : FVec Ideal ⟨1, ![M]⟩ φ) (i : Fin N) :
    Host.scatterAdd d x idx upd (ix1 i)
      = x (ix1 i) + ∑ e : Fin M, if (idx (ix2 e (0 : Fin 1))).toInt = (i.val : ℤ) then upd (ix1 e) else 0 := by
  obtain ⟨uw, iw, sd, ivd, wf⟩ := d
  simp only at huw hiw hsd hivd
  subst huw hiw hsd hivd
  show Ideal.hostScatterAdd (vecDims N M wf) x idx upd (ix1 i) = _
  unfold Ideal.hostScatterAdd
  congr 1
  rw [Finset.sum_filter, sum_idx1]
  refine Finset.sum_congr rfl fun e _ => ?_
  exact if_congr (vec_resultIdx wf idx (ix1 e) i) rfl rfl

/-! ## Rows of updates added into an array -/

/-- The row scatter's dimension numbers: the updates' axis 1 the window axis, the operand's axis 0 inserted and
    scatter-indexed, the index vector on axis 1 of the column of words. -/
abbrev rowDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- On the operand's axis 0 update `q` lands at its word read signed: the start is the word at row `q 0` of the column,
    the window coordinate zero (the axis is inserted). -/
theorem row_landing0 {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) :
    (rowDims N M C wf).start q idx 0 + ((rowDims N M C wf).window q 0 : ℤ) = (idx (ix2 (q 0) (0 : Fin 1))).toInt := by
  unfold ScatterDims.start ScatterDims.window
  rw [dif_pos (show (0 : Fin 2) ∈ (rowDims N M C wf).scatterDimsToOperandDims from List.mem_singleton.mpr rfl),
    dif_neg (show (0 : Fin 2) ∉ (rowDims N M C wf).sKept by
      show (0 : Fin 2) ∉ (List.finRange 2).filter (· ∉ [(0 : Fin 2)]); decide)]
  have hsi : (rowDims N M C wf).siIdx q ⟨List.idxOf (0 : Fin 2) (rowDims N M C wf).scatterDimsToOperandDims,
      List.idxOf_lt_length_iff.2 (List.mem_singleton.mpr rfl)⟩ = ix2 (q 0) (0 : Fin 1) := by
    funext b; refine Fin.ext ?_
    match b with
    | ⟨0, _⟩ => rfl
    | ⟨1, _⟩ => rfl
  rw [hsi]
  simp

/-- On the operand's axis 1 update `q` lands at its own column: the start is 0 (the axis is not scatter-indexed), the
    window coordinate the update's coordinate on its one window axis. -/
theorem row_landing1 {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) :
    (rowDims N M C wf).start q idx 1 + ((rowDims N M C wf).window q 1 : ℤ) = ((q 1).val : ℤ) := by
  unfold ScatterDims.start ScatterDims.window
  rw [dif_neg (show (1 : Fin 2) ∉ (rowDims N M C wf).scatterDimsToOperandDims by
      show (1 : Fin 2) ∉ [(0 : Fin 2)]; decide),
    dif_pos (show (1 : Fin 2) ∈ (rowDims N M C wf).sKept by
      show (1 : Fin 2) ∈ (List.finRange 2).filter (· ∉ [(0 : Fin 2)]); decide), Int.zero_add]
  rfl

/-- The update at `q` lands on element `(i, k)` exactly when its word, read signed, is `i` and its column is `k`. -/
theorem row_resultIdx {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) (i : Fin N) (k : Fin C) :
    (rowDims N M C wf).resultIdx? q idx = some (ix2 i k)
      ↔ (idx (ix2 (q 0) (0 : Fin 1))).toInt = (i.val : ℤ) ∧ q 1 = k := by
  have hl0 := row_landing0 wf idx q
  have hl1 := row_landing1 wf idx q
  unfold ScatterDims.resultIdx?
  constructor
  · intro h
    split at h
    · next hc =>
      have hf := Option.some.inj h
      have h0 := congrArg Fin.val (congrFun hf 0)
      have h1 := congrArg Fin.val (congrFun hf 1)
      change ((rowDims N M C wf).start q idx 0 + ((rowDims N M C wf).window q 0 : ℤ)).toNat = i.val at h0
      change ((rowDims N M C wf).start q idx 1 + ((rowDims N M C wf).window q 1 : ℤ)).toNat = k.val at h1
      have hc0 := (hc 0).1
      rw [hl0] at h0 hc0
      rw [hl1] at h1
      refine ⟨by omega, Fin.ext ?_⟩
      simpa using h1
    · exact absurd h (by simp)
  · rintro ⟨h, hk⟩
    have hc : ∀ a, 0 ≤ (rowDims N M C wf).start q idx a + ((rowDims N M C wf).window q a : ℤ) ∧
        (rowDims N M C wf).start q idx a + ((rowDims N M C wf).window q a : ℤ) < ((⟨2, ![N, C]⟩ : Shape).size a : ℤ) := by
      intro a
      match a with
      | ⟨0, _⟩ =>
        have := i.isLt
        refine ⟨?_, ?_⟩
        · show 0 ≤ (rowDims N M C wf).start q idx 0 + ((rowDims N M C wf).window q 0 : ℤ)
          rw [hl0, h]; omega
        · show (rowDims N M C wf).start q idx 0 + ((rowDims N M C wf).window q 0 : ℤ) < (N : ℤ)
          rw [hl0, h]; omega
      | ⟨1, _⟩ =>
        have := idx2_lt1 q
        refine ⟨?_, ?_⟩
        · show 0 ≤ (rowDims N M C wf).start q idx 1 + ((rowDims N M C wf).window q 1 : ℤ)
          rw [hl1]; omega
        · show (rowDims N M C wf).start q idx 1 + ((rowDims N M C wf).window q 1 : ℤ) < (C : ℤ)
          rw [hl1]; omega
    rw [dif_pos hc]
    congr 1
    funext a
    refine Fin.ext ?_
    match a with
    | ⟨0, _⟩ =>
      show ((rowDims N M C wf).start q idx 0 + ((rowDims N M C wf).window q 0 : ℤ)).toNat = i.val
      rw [hl0, h]; simp
    | ⟨1, _⟩ =>
      show ((rowDims N M C wf).start q idx 1 + ((rowDims N M C wf).window q 1 : ℤ)).toNat = k.val
      rw [hl1, hk]; simp

/-- THE ROW SCATTER READ AT `(i, j)`: the operand's element plus the sum, over the `M` update rows, of column `j` of those
    whose word read signed is `i`. The filtered sum over update indices becomes the double sum over (row, column) with an
    `if` (`Finset.sum_filter`, `sum_idx2`); the column sum keeps the one term at `j` (`Finset.sum_ite_eq'`). -/
theorem scatterAdd_rows_apply {N M C w : Nat} {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ) (i : Fin N) (j : Fin C) :
    Host.scatterAdd d x idx upd (ix2 i j)
      = x (ix2 i j) + ∑ e : Fin M, if (idx (ix2 e (0 : Fin 1))).toInt = (i.val : ℤ) then upd (ix2 e j) else 0 := by
  obtain ⟨uw, iw, sd, ivd, wf⟩ := d
  simp only at huw hiw hsd hivd
  subst huw hiw hsd hivd
  show Ideal.hostScatterAdd (rowDims N M C wf) x idx upd (ix2 i j) = _
  unfold Ideal.hostScatterAdd
  congr 1
  rw [Finset.sum_filter, sum_idx2]
  refine Finset.sum_congr rfl fun e _ => ?_
  have hstep : ∀ b : Fin C,
      (if (rowDims N M C wf).resultIdx? (ix2 e b) idx = some (ix2 i j) then upd (ix2 e b) else 0)
        = if b = j then (if (idx (ix2 e (0 : Fin 1))).toInt = (i.val : ℤ) then upd (ix2 e b) else 0) else 0 := by
    intro b
    have hiff := row_resultIdx wf idx (ix2 e b) i j
    by_cases hb : b = j
    · rw [if_pos hb]
      exact if_congr (hiff.trans ⟨fun h => h.1, fun h => ⟨h, hb⟩⟩) rfl rfl
    · rw [if_neg hb, if_neg]
      exact fun h => hb (hiff.mp h).2
  rw [Finset.sum_congr rfl fun b _ => hstep b, Finset.sum_ite_eq' Finset.univ j, if_pos (Finset.mem_univ j)]

/-! ## Rows gathered out of an array -/

/-- The row gather's dimension numbers: the result's axis 1 the offset axis, the operand's axis 0 collapsed and
    start-indexed, no batching axes, the index vector on axis 1 of the column of words, slices one row wide. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- On the collapsed axis the operand index is the clamped start: the word at row `e` of the column read signed, cut
    into `[0, N - 1]`; no batching or offset coordinate. -/
theorem rowGather_axis0 {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (j : Fin C) :
    ((rowGatherDims N M C wf).operandIdx (ix2 e j) idx 0).val = min (idx (ix2 e (0 : Fin 1))).toInt.toNat (N - 1) := by
  show (rowGatherDims N M C wf).start (ix2 e j) idx 0 + (rowGatherDims N M C wf).batchCoord (ix2 e j) 0
    + (rowGatherDims N M C wf).offCoord (ix2 e j) 0 = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowGatherDims N M C wf).startIndexMap from List.mem_singleton.mpr rfl)]
  have hsi : (rowGatherDims N M C wf).siIdx (ix2 e j) ⟨List.idxOf (0 : Fin 2) (rowGatherDims N M C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the offset axis the operand index is the result's column: the start is 0 (the axis is not start-indexed), the
    offset coordinate the result's coordinate on its one offset axis. -/
theorem rowGather_axis1 {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (j : Fin C) :
    ((rowGatherDims N M C wf).operandIdx (ix2 e j) idx 1).val = j.val := by
  show (rowGatherDims N M C wf).start (ix2 e j) idx 1 + (rowGatherDims N M C wf).batchCoord (ix2 e j) 1
    + (rowGatherDims N M C wf).offCoord (ix2 e j) 1 = _
  rw [GatherDims.batchCoord_eq_zero _ _ _ List.not_mem_nil, Nat.add_zero]
  unfold GatherDims.start
  rw [dif_neg (show (1 : Fin 2) ∉ (rowGatherDims N M C wf).startIndexMap by
    show (1 : Fin 2) ∉ [(0 : Fin 2)]; decide), Nat.zero_add]
  unfold GatherDims.offCoord
  rw [dif_pos (show (1 : Fin 2) ∈ (rowGatherDims N M C wf).sKept by
    show (1 : Fin 2) ∈ (List.finRange 2).filter (· ∉ [(0 : Fin 2)] ++ []); decide)]
  rfl

/-- THE ROW GATHER READ AT `(e, j)`: the array at row "word `e`, read signed and clamped into `[0, N - 1]`", column `j`. -/
theorem gather_rows_apply {α : Type} {N M C w : Nat} (d : GatherDims ⟨2, ![N, C]⟩ ⟨2, ![M, 1]⟩ ⟨2, ![M, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![M, 1]⟩ w) (e : Fin M) (j : Fin C) (hN : 0 < N) :
    Host.gather d x idx (ix2 e j)
      = x (ix2 (⟨min (idx (ix2 e (0 : Fin 1))).toInt.toNat (N - 1), by omega⟩ : Fin N) j) := by
  obtain ⟨od, cd, ob, sb, sm, ivd, ss, wf⟩ := d
  simp only at hoff hcoll hob hsb hsim hivd hss
  subst hoff hcoll hob hsb hsim hivd hss
  show x ((rowGatherDims N M C wf).operandIdx (ix2 e j) idx) = _
  congr 1
  funext a
  refine Fin.ext ?_
  match a with
  | ⟨0, _⟩ => exact rowGather_axis0 wf idx e j
  | ⟨1, _⟩ => exact rowGather_axis1 wf idx e j

end Cert.LibScatterGather

end
-- ==== Proof.RefRead.lean ====
/-
  The reference's composed term, read at an index on the extended reals, is the layer's function.
-/
import proofs.«402971_j62783831933672_3_alg».proof.Proof.RefTerm
import proofs.«402971_j62783831933672_3_alg».proof.Proof.Spec
import proofs.«402971_j62783831933672_3_alg».proof.Proof.LibPlainDot
import proofs.«402971_j62783831933672_3_alg».proof.Proof.LibScatterGather

noncomputable section

open scoped BigOperators

namespace Cert.ReferenceIdeal.RefRead

open Cert.ReferenceIdeal Idealize.ShloMosaic Idealize.ShloMosaic.ValueIdx

/-- The shift amount of lane j is four times j. -/
theorem shifts_toNat (j : Fin 8) : (RefTerm.shifts (ix1 j)).toNat = 4 * j.val :=
  QLin.amount_host j

/-- A packed weight row broadcast over the eight fields reads the packed word of its row and column. -/
theorem bcast_qw {α : Type} (h₁ h₂) (qw : S512x11008.Idx → α) (r : Fin 512) (j : Fin 8) (o : Fin 11008) :
    broadcastInDim S512x8x11008 ![0, 1, 2] h₂ (broadcastInDim S512x1x11008 ![0, 2] h₁ qw) (ix3 r j o) = qw (ix2 r o) := by
  refine (broadcastInDim_apply _ _ _ (ix3 r j o) (ix3 r (0 : Fin 1) o)
    (fun a => match a with | ⟨0, _⟩ => rfl | ⟨1, _⟩ => rfl | ⟨2, _⟩ => rfl)).trans ?_
  exact broadcastInDim_apply _ _ _ _ (ix2 r o) (fun a => match a with | ⟨0, _⟩ => rfl | ⟨1, _⟩ => rfl)

/-- The eight amounts broadcast along the middle axis read the amount of the field. -/
theorem bcast_mid {α : Type} (h₁ h₂) (v : S8.Idx → α) (r : Fin 512) (j : Fin 8) (o : Fin 11008) :
    broadcastInDim S512x8x11008 ![0, 1, 2] h₂ (broadcastInDim S1x8x1 ![1] h₁ v) (ix3 r j o) = v (ix1 j) := by
  refine (broadcastInDim_apply _ _ _ (ix3 r j o) (ix3 (0 : Fin 1) j (0 : Fin 1))
    (fun a => match a with | ⟨0, _⟩ => rfl | ⟨1, _⟩ => rfl | ⟨2, _⟩ => rfl)).trans ?_
  exact broadcastInDim_apply _ _ _ _ (ix1 j) (fun a => match a with | ⟨0, _⟩ => rfl)

/-- The unpacked weight at (K, o): the reshape reads field K mod 8 of packed row K / 8 (same row-major position), the
    row is broadcast over the fields and the amounts over rows and columns, and shift-then-mask is the field. -/
theorem wInt_apply (qw : IVec S512x11008 32) (K : Fin 4096) (o : Fin 11008) :
    RefTerm.wInt qw (ix2 K o) = QLin.wq qw K o := by
  have hK := K.isLt
  unfold RefTerm.wInt
  refine (shapeCast_apply _ _ (ix2 K o)
    (ix3 (⟨K.val / 8, by omega⟩ : Fin 512) (⟨K.val % 8, Nat.mod_lt _ (by decide)⟩ : Fin 8) o)
    (by rw [Shape.rowMajor_val_three, Shape.rowMajor_val_two]
        show (K.val / 8 * 8 + K.val % 8) * 11008 + o.val = K.val * 11008 + o.val
        rw [Nat.div_add_mod']) ).trans ?_
  show IntOp.andi (IntOp.shrsi .host (broadcastInDim S512x8x11008 ![0, 1, 2] _ (broadcastInDim S512x1x11008 ![0, 2] _ qw) _)
    (broadcastInDim S512x8x11008 ![0, 1, 2] _ (broadcastInDim S1x8x1 ![1] _ RefTerm.shifts) _))
    15#32 = _
  rw [bcast_qw, bcast_mid]
  exact QLin.andi_shrsi_eq_nib .host _ _ _ (shifts_toNat _)

/-- A packed zero-point column broadcast over the eight fields reads the packed word of its row and column. -/
theorem bcast_qz {α : Type} (h₁ h₂) (qz : S32x1376.Idx → α) (g : Fin 32) (c : Fin 1376) (j : Fin 8) :
    broadcastInDim S32x1376x8 ![0, 1, 2] h₂ (broadcastInDim S32x1376x1 ![0, 1] h₁ qz) (ix3 g c j) = qz (ix2 g c) := by
  refine (broadcastInDim_apply _ _ _ (ix3 g c j) (ix3 g c (0 : Fin 1))
    (fun a => match a with | ⟨0, _⟩ => rfl | ⟨1, _⟩ => rfl | ⟨2, _⟩ => rfl)).trans ?_
  exact broadcastInDim_apply _ _ _ _ (ix2 g c) (fun a => match a with | ⟨0, _⟩ => rfl | ⟨1, _⟩ => rfl)

/-- The eight amounts broadcast along the last axis read the amount of the field. -/
theorem bcast_last {α : Type} (h₁ h₂) (v : S8.Idx → α) (g : Fin 32) (c : Fin 1376) (j : Fin 8) :
    broadcastInDim S32x1376x8 ![0, 1, 2] h₂ (broadcastInDim S1x1x8 ![2] h₁ v) (ix3 g c j) = v (ix1 j) := by
  refine (broadcastInDim_apply _ _ _ (ix3 g c j) (ix3 (0 : Fin 1) (0 : Fin 1) j)
    (fun a => match a with | ⟨0, _⟩ => rfl | ⟨1, _⟩ => rfl | ⟨2, _⟩ => rfl)).trans ?_
  exact broadcastInDim_apply _ _ _ _ (ix1 j) (fun a => match a with | ⟨0, _⟩ => rfl)

/-- The unpacked zero point at (g, o): the reshape reads field o mod 8 of packed column o / 8, plus one. -/
theorem zInt_apply (qz : IVec S32x1376 32) (g : Fin 32) (o : Fin 11008) :
    RefTerm.zInt qz (ix2 g o) = QLin.zq qz g o := by
  have ho := o.isLt
  unfold RefTerm.zInt
  refine (shapeCast_apply _ _ (ix2 g o)
    (ix3 g (⟨o.val / 8, by omega⟩ : Fin 1376) (⟨o.val % 8, Nat.mod_lt _ (by decide)⟩ : Fin 8))
    (by rw [Shape.rowMajor_val_three, Shape.rowMajor_val_two]
        show (g.val * 1376 + o.val / 8) * 8 + o.val % 8 = g.val * 11008 + o.val
        omega)).trans ?_
  show IntOp.addi (IntOp.andi (IntOp.shrsi .host (broadcastInDim S32x1376x8 ![0, 1, 2] _ (broadcastInDim S32x1376x1 ![0, 1] _ qz) _)
    (broadcastInDim S32x1376x8 ![0, 1, 2] _ (broadcastInDim S1x1x8 ![2] _ RefTerm.shifts) _))
    15#32) 1#32 = _
  rw [bcast_qz, bcast_last, QLin.andi_shrsi_eq_nib .host _ _ _ (shifts_toNat _)]
  rfl

/-- The truncating quotient of a small non-negative word by 128 is the quotient of the numbers: no corner (the divisor
    is neither zero nor minus one), and both operands are non-negative, so the signed quotient is the unsigned one. -/
theorem divsi_128 (n : ℕ) (hn : n < 4096) :
    IntOp.divsi .host (BitVec.ofNat 32 n) 128#32 = BitVec.ofNat 32 (n / 128) := by
  have hc : ¬ IntOp.SDivCorner (BitVec.ofNat 32 n) 128#32 := IntOp.not_corner_of_pos (by decide)
  have hm : (BitVec.ofNat 32 n).msb = false := by
    rw [BitVec.msb_eq_false_iff_two_mul_lt, BitVec.toNat_ofNat]; omega
  unfold IntOp.divsi
  rw [if_neg hc, BitVec.sdiv_eq, hm, show (128#32 : BitVec 32).msb = false from by decide]
  apply BitVec.eq_of_toNat_eq
  show (BitVec.ofNat 32 n / 128#32).toNat = _
  rw [BitVec.toNat_udiv, BitVec.toNat_ofNat, BitVec.toNat_ofNat, BitVec.toNat_ofNat,
    Nat.mod_eq_of_lt (show n < 2 ^ 32 by omega), Nat.mod_eq_of_lt (show n / 128 < 2 ^ 32 by omega)]

/-- The sign of a small non-negative word: zero at zero, one elsewhere. -/
theorem signi_iota (K : Fin 4096) :
    signi (iotaInDim S4096 32 0) (ix1 K) = if K.val = 0 then 0#32 else 1#32 := by
  have hK := K.isLt
  show (if BitVec.ofNat 32 K.val = 0 then (0 : BitVec 32) else if (BitVec.ofNat 32 K.val).msb then -1 else 1) = _
  have hm : (BitVec.ofNat 32 K.val).msb = false := by
    rw [BitVec.msb_eq_false_iff_two_mul_lt, BitVec.toNat_ofNat]; omega
  have h0 : BitVec.ofNat 32 K.val = 0 ↔ K.val = 0 := by
    rw [← BitVec.toNat_inj, BitVec.toNat_ofNat]
    show K.val % 2 ^ 32 = 0 ↔ _
    omega
  by_cases hz : K.val = 0
  · rw [if_pos (h0.mpr hz), if_pos hz]; rfl
  · rw [if_neg (fun h => hz (h0.mp h)), if_neg hz, hm]; rfl

/-- The group of in-feature K is K / 128: the signs of dividend and divisor differ only at K = 0, where the remainder
    is zero, so the floor correction never applies and the truncating quotient stands. -/
theorem grpInt_apply (K : Fin 4096) : RefTerm.grpInt (ix1 K) = BitVec.ofNat 32 (K.val / 128) := by
  have hK := K.isLt
  unfold RefTerm.grpInt RefTerm.floorDiv
  rw [select_apply]
  show Scalar.select (IntOp.andi (IntOp.cmpi .ne (signi (iotaInDim S4096 32 0) (ix1 K)) (signi (constantI S_ 32 128#32) ix0))
      (IntOp.cmpi .ne (IntOp.remsi .host (BitVec.ofNat 32 K.val) 128#32) 0#32))
    (IntOp.subi (IntOp.divsi .host (BitVec.ofNat 32 K.val) 128#32) 1#32)
    (IntOp.divsi .host (BitVec.ofNat 32 K.val) 128#32) = _
  have hx : 2 * (BitVec.ofNat 32 K.val).toNat < 2 ^ 32 := by rw [BitVec.toNat_ofNat]; omega
  have hcond : IntOp.andi (IntOp.cmpi .ne (signi (iotaInDim S4096 32 0) (ix1 K)) (signi (constantI S_ 32 128#32) ix0))
      (IntOp.cmpi .ne (IntOp.remsi .host (BitVec.ofNat 32 K.val) 128#32) 0#32) = 0#1 := by
    refine eq_zero_of_ne_one fun h => ?_
    obtain ⟨h1, h2⟩ := IntOp.andi_eq_one.mp h
    rw [IntOp.cmpi_ne, signi_iota] at h1
    rw [IntOp.cmpi_ne, Ne, IntOp.remsi_eq_zero_iff .host hx 128 (by decide) (by decide), BitVec.toNat_ofNat] at h2
    by_cases hz : K.val = 0
    · exact h2 (by rw [hz]; exact Nat.dvd_zero _)
    · rw [if_neg hz] at h1; exact h1 rfl
  rw [hcond, select_zero, divsi_128 K.val hK]

/-- The group as a start index: never negative, so the index column holds the group itself. -/
theorem grpCol_apply (K : Fin 4096) : RefTerm.grpCol (ix2 K (0 : Fin 1)) = BitVec.ofNat 32 (K.val / 128) := by
  have hK := K.isLt
  unfold RefTerm.grpCol
  refine (broadcastInDim_apply _ _ _ (ix2 K (0 : Fin 1)) (ix1 K) (fun a => match a with | ⟨0, _⟩ => rfl)).trans ?_
  rw [select_apply]
  show Scalar.select (IntOp.cmpi .slt (RefTerm.grpInt (ix1 K)) 0#32) (IntOp.addi (RefTerm.grpInt (ix1 K)) 32#32)
    (RefTerm.grpInt (ix1 K)) = _
  rw [grpInt_apply]
  have hcond : IntOp.cmpi .slt (BitVec.ofNat 32 (K.val / 128)) 0#32 = 0#1 := by
    refine eq_zero_of_ne_one fun h => ?_
    rw [IntOp.cmpi_slt, BitVec.toInt_eq_toNat_of_lt (by rw [BitVec.toNat_ofNat]; omega)] at h
    have h0 : (0#32 : BitVec 32).toInt = 0 := by decide
    omega
  rw [hcond, select_zero]

/-- Read signed, the start index of in-feature K is the number K / 128. -/
theorem grpCol_toNat (K : Fin 4096) : (RefTerm.grpCol (ix2 K (0 : Fin 1))).toInt.toNat = K.val / 128 := by
  have hK := K.isLt
  rw [grpCol_apply, BitVec.toInt_eq_toNat_of_lt (by rw [BitVec.toNat_ofNat]; omega), Int.toNat_natCast, BitVec.toNat_ofNat]
  omega

/-- A 32-row table gathered row by row at the group column reads the row of the in-feature's group. -/
theorem gather_grp {α : Type} (t : S32x11008.Idx → α) (K : Fin 4096) (o : Fin 11008) :
    Host.gather gather_S32x11008_S4096x1_S4096x11008_1_0_n_n_0_1_111008 t RefTerm.grpCol (ix2 K o)
      = t (ix2 (QLin.grp K) o) := by
  have hK := K.isLt
  rw [Cert.LibScatterGather.gather_rows_apply gather_S32x11008_S4096x1_S4096x11008_1_0_n_n_0_1_111008 rfl rfl rfl rfl rfl rfl rfl
    t RefTerm.grpCol K o (by decide)]
  congr 2
  apply Fin.ext
  show min (RefTerm.grpCol (ix2 K (0 : Fin 1))).toInt.toNat (32 - 1) = K.val / 128
  rw [grpCol_toNat]
  omega

/-- The dequantised weight at (K, o): both gathers read row K / 128; the integer difference of a field and a field plus
    one does not wrap, so converting it is the difference of the converted integers. -/
theorem wDeq_apply (qw : IVec S512x11008 32) (qz : IVec S32x1376 32) (sc : FVec Ideal S32x11008 .f32)
    (K : Fin 4096) (o : Fin 11008) :
    RefTerm.wDeq (F := Ideal) qw qz sc (ix2 K o) = QLin.wdeq qw qz sc K o := by
  unfold RefTerm.wDeq
  rw [mulf_apply, sitofp_apply, gather_grp]
  show (((IntOp.subi (RefTerm.wInt qw (ix2 K o))
      (Host.gather gather_S32x11008_S4096x1_S4096x11008_1_0_n_n_0_1_111008 (RefTerm.zInt qz) RefTerm.grpCol (ix2 K o))).toInt : ℝ) : EReal)
    * sc (ix2 (QLin.grp K) o) = _
  rw [gather_grp, wInt_apply, zInt_apply]
  unfold QLin.wdeq QLin.wq QLin.zq IntOp.subi
  rw [QLin.coe_toInt_sub_fields]

/-- The bias broadcast over the rows reads the bias of the column. -/
theorem bcast_bias {α : Type} (h₁ h₂) (b : S11008.Idx → α) (p : Fin 256) (o : Fin 11008) :
    broadcastInDim S256x11008 ![0, 1] h₂ (broadcastInDim S1x11008 ![1] h₁ b) (ix2 p o) = b (ix1 o) := by
  refine (broadcastInDim_apply _ _ _ (ix2 p o) (ix2 (0 : Fin 1) o)
    (fun a => match a with | ⟨0, _⟩ => rfl | ⟨1, _⟩ => rfl)).trans ?_
  exact broadcastInDim_apply _ _ _ _ (ix1 o) (fun a => match a with | ⟨0, _⟩ => rfl)

/-- THE REFERENCE'S RESULT IS THE LAYER: the product is the sum over the in-features of x times the dequantised
    weight, and the bias is broadcast over the rows. -/
theorem out_eq_G (x : FVec Ideal S256x4096 .f32) (qw : IVec S512x11008 32) (qz : IVec S32x1376 32)
    (sc : FVec Ideal S32x11008 .f32) (b : FVec Ideal S11008 .f32) :
    RefTerm.out (F := Ideal) x qw qz sc b = QLin.G x qw qz sc b := by
  funext y
  obtain ⟨p, o, rfl⟩ : ∃ (p : Fin 256) (o : Fin 11008), y = ix2 p o := ⟨y 0, y 1, eq_ix2 y⟩
  unfold RefTerm.out
  rw [addf_apply, QLin.G_ix2]
  have hdot : Host.dotGeneral dot_S256x4096_S4096x11008_S256x11008_1_0_0_1_n_n none x (RefTerm.wDeq qw qz sc)
      = Cert.LibPlainDot.matProd (M := 256) (K := 4096) (N := 11008) x (RefTerm.wDeq qw qz sc) :=
    Cert.LibPlainDot.dotGeneral_eq_matProd dot_S256x4096_S4096x11008_S256x11008_1_0_0_1_n_n rfl rfl rfl rfl rfl rfl
      none .single x (RefTerm.wDeq qw qz sc)
  rw [hdot, bcast_bias, Cert.LibPlainDot.matProd_ix2]
  congr 1
  exact Finset.sum_congr rfl fun K _ => by rw [wDeq_apply]

end Cert.ReferenceIdeal.RefRead

end
-- ==== Proof.lean ====
/- The certificate's claims, assembled. The two frames of the kernel are its generated frame runs; the reference's frame
   is its run with the result dropped; the idealization rewrote nothing; and on the extended reals the kernel's result
   array and the reference's are one function of the argument arrays (QLin.G): the kernel's by its run read block by
   block, the reference's by its composed term read at an index. -/
import proofs.«402971_j62783831933672_3_alg».proof.Defs
import proofs.«402971_j62783831933672_3_alg».proof.Proof.Gen.Kernel
import proofs.«402971_j62783831933672_3_alg».proof.Proof.Gen.Kernel.Skeleton
import proofs.«402971_j62783831933672_3_alg».proof.Proof.Gen.Kernel.Loops
import proofs.«402971_j62783831933672_3_alg».proof.Proof.Gen.Kernel.Launch
import proofs.«402971_j62783831933672_3_alg».proof.Proof.Gen.Kernel.Points
import proofs.«402971_j62783831933672_3_alg».proof.Proof.Gen.Kernel.Frame
import proofs.«402971_j62783831933672_3_alg».proof.Proof.Gen.KernelIdeal
import proofs.«402971_j62783831933672_3_alg».proof.Proof.Gen.KernelIdeal.Skeleton
import proofs.«402971_j62783831933672_3_alg».proof.Proof.Gen.KernelIdeal.Loops
import proofs.«402971_j62783831933672_3_alg».proof.Proof.Gen.KernelIdeal.Launch
import proofs.«402971_j62783831933672_3_alg».proof.Proof.Gen.KernelIdeal.Points
import proofs.«402971_j62783831933672_3_alg».proof.Proof.Gen.KernelIdeal.Frame
import proofs.«402971_j62783831933672_3_alg».proof.Proof.Gen.KernelIdeal.Value
import proofs.«402971_j62783831933672_3_alg».proof.Proof.KernelValue
import proofs.«402971_j62783831933672_3_alg».proof.Proof.RefRun
import proofs.«402971_j62783831933672_3_alg».proof.Proof.RefRead
import proofs.«402971_j62783831933672_3_alg».proof.Proof.Gen.ReferenceIdeal
import proofs.«402971_j62783831933672_3_alg».proof.Proof.Gen.Pre_finite_inputs
import Idealize.ShloMosaic.Adequacy
import Idealize.ShloMosaic.Init

noncomputable section

namespace Cert.Proof

open Idealize.ShloMosaic Idealize.SL.Sem Cert.Kernel

/-- On the extended reals the kernel's result array and the reference's are the layer's one function of arguments that
    agree: the kernel's by its run read block by block, the reference's by its composed term read at an index. -/
theorem algebraic : Cert.algebraic_KernelIdeal_ReferenceIdeal := by
  intro m ρ m' ρ' _ hagree
  refine ⟨_, Cert.KernelIdeal.QValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefRead.out_eq_G, (hagree c).1, (hagree c).2.1, (hagree c).2.2.1, (hagree c).2.2.2.1,
    (hagree c).2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RefRun.run (F := Ideal) m ρ),
  trivial,
  algebraic⟩

end Cert.Proof

end
